-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x64 : Shape := ⟨3, ![128, 1, 64]⟩
abbrev S128x8192x64 : Shape := ⟨3, ![128, 8192, 64]⟩
abbrev S128x1x8192 : Shape := ⟨3, ![128, 1, 8192]⟩
abbrev S_ : Shape := ⟨0, ![]⟩

class Facts : Prop where
  bcast_S_S128x1x64 : S_.BroadcastsInDim S128x1x64 (![] : Fin 0 → Fin S128x1x64.rank)
  reducesTo_S128x1x64_S_d0_1_2 : S128x1x64.ReducesTo [0, 1, 2] S_
  h_S_ : 0 < S_.numel
  bcast_S_S128x8192x64 : S_.BroadcastsInDim S128x8192x64 (![] : Fin 0 → Fin S128x8192x64.rank)
  reducesTo_S128x8192x64_S_d0_1_2 : S128x8192x64.ReducesTo [0, 1, 2] S_
  bcast_S_S128x1x8192 : S_.BroadcastsInDim S128x1x8192 (![] : Fin 0 → Fin S128x1x8192.rank)
  reducesTo_S128x1x8192_S_d0_1_2 : S128x1x8192.ReducesTo [0, 1, 2] S_

variable [Facts]

def fn_part1 {F : FTy → Type} [FloatOps F] (main_arg4 : FVec F S128x1x64 .f32) (main_arg5 : FVec F S128x1x64 .f32) (main_arg6 : FVec F S128x1x8192 .f32) (main_v13 : IVec S_ 1) (main_v16 : IVec S128x1x64 1) : IVec S_ 1 :=
  let main_c_5 : IVec S_ 1 := constantI S_ 1 1#1
  let main_v17 : IVec S_ 1 := (fun x v => Host.reduce IntOp.andi x v reducesTo_S128x1x64_S_d0_1_2 h_S_) main_v16 main_c_5
  let main_v18 : IVec S_ 1 := andi main_v13 main_v17
  let main_v19 : FVec F S128x1x64 .f32 := Host.absf main_arg4
  let main_cst_6 : FVec F S_ .f32 := constant S_ .f32 0x7F800000#32
  let main_v20 : FVec F S128x1x64 .f32 := broadcastInDim S128x1x64 ![] bcast_S_S128x1x64 main_cst_6
  let main_v21 : IVec S128x1x64 1 := cmpf .olt main_v19 main_v20
  let main_c_7 : IVec S_ 1 := constantI S_ 1 1#1
  let main_v22 : IVec S_ 1 := (fun x v => Host.reduce IntOp.andi x v reducesTo_S128x1x64_S_d0_1_2 h_S_) main_v21 main_c_7
  let main_v23 : IVec S_ 1 := andi main_v18 main_v22
  let main_v24 : FVec F S128x1x64 .f32 := Host.absf main_arg5
  let main_cst_8 : FVec F S_ .f32 := constant S_ .f32 0x7F800000#32
  let main_v25 : FVec F S128x1x64 .f32 := broadcastInDim S128x1x64 ![] bcast_S_S128x1x64 main_cst_8
  let main_v26 : IVec S128x1x64 1 := cmpf .olt main_v24 main_v25
  let main_c_9 : IVec S_ 1 := constantI S_ 1 1#1
  let main_v27 : IVec S_ 1 := (fun x v => Host.reduce IntOp.andi x v reducesTo_S128x1x64_S_d0_1_2 h_S_) main_v26 main_c_9
  let main_v28 : IVec S_ 1 := andi main_v23 main_v27
  let main_v29 : FVec F S128x1x8192 .f32 := Host.absf main_arg6
  let main_cst_10 : FVec F S_ .f32 := constant S_ .f32 0x7F800000#32
  let main_v30 : FVec F S128x1x8192 .f32 := broadcastInDim S128x1x8192 ![] bcast_S_S128x1x8192 main_cst_10
  let main_v31 : IVec S128x1x8192 1 := cmpf .olt main_v29 main_v30
  let main_c_11 : IVec S_ 1 := constantI S_ 1 1#1
  let main_v32 : IVec S_ 1 := (fun x v => Host.reduce IntOp.andi x v reducesTo_S128x1x8192_S_d0_1_2 h_S_) main_v31 main_c_11
  let main_v33 : IVec S_ 1 := andi main_v28 main_v32
  main_v33

def fn {F : FTy → Type} [FloatOps F] (main_arg0 : FVec F S128x1x64 .f32) (main_arg1 : FVec F S128x8192x64 .f32) (main_arg2 : FVec F S128x8192x64 .f32) (main_arg3 : FVec F S128x1x64 .f32) (main_arg4 : FVec F S128x1x64 .f32) (main_arg5 : FVec F S128x1x64 .f32) (main_arg6 : FVec F S128x1x8192 .f32) : IVec S_ 1 :=
  let main_v0 : FVec F S128x1x64 .f32 := Host.absf main_arg0
  let main_cst : FVec F S_ .f32 := constant S_ .f32 0x7F800000#32
  let main_v1 : FVec F S128x1x64 .f32 := broadcastInDim S128x1x64 ![] bcast_S_S128x1x64 main_cst
  let main_v2 : IVec S128x1x64 1 := cmpf .olt main_v0 main_v1
  let main_c : IVec S_ 1 := constantI S_ 1 1#1
  let main_v3 : IVec S_ 1 := (fun x v => Host.reduce IntOp.andi x v reducesTo_S128x1x64_S_d0_1_2 h_S_) main_v2 main_c
  let main_v4 : FVec F S128x8192x64 .f32 := Host.absf main_arg1
  let main_cst_0 : FVec F S_ .f32 := constant S_ .f32 0x7F800000#32
  let main_v5 : FVec F S128x8192x64 .f32 := broadcastInDim S128x8192x64 ![] bcast_S_S128x8192x64 main_cst_0
  let main_v6 : IVec S128x8192x64 1 := cmpf .olt main_v4 main_v5
  let main_c_1 : IVec S_ 1 := constantI S_ 1 1#1
  let main_v7 : IVec S_ 1 := (fun x v => Host.reduce IntOp.andi x v reducesTo_S128x8192x64_S_d0_1_2 h_S_) main_v6 main_c_1
  let main_v8 : IVec S_ 1 := andi main_v3 main_v7
  let main_v9 : FVec F S128x8192x64 .f32 := Host.absf main_arg2
  let main_cst_2 : FVec F S_ .f32 := constant S_ .f32 0x7F800000#32
  let main_v10 : FVec F S128x8192x64 .f32 := broadcastInDim S128x8192x64 ![] bcast_S_S128x8192x64 main_cst_2
  let main_v11 : IVec S128x8192x64 1 := cmpf .olt main_v9 main_v10
  let main_c_3 : IVec S_ 1 := constantI S_ 1 1#1
  let main_v12 : IVec S_ 1 := (fun x v => Host.reduce IntOp.andi x v reducesTo_S128x8192x64_S_d0_1_2 h_S_) main_v11 main_c_3
  let main_v13 : IVec S_ 1 := andi main_v8 main_v12
  let main_v14 : FVec F S128x1x64 .f32 := Host.absf main_arg3
  let main_cst_4 : FVec F S_ .f32 := constant S_ .f32 0x7F800000#32
  let main_v15 : FVec F S128x1x64 .f32 := broadcastInDim S128x1x64 ![] bcast_S_S128x1x64 main_cst_4
  let main_v16 : IVec S128x1x64 1 := cmpf .olt main_v14 main_v15
  fn_part1 (F := F) main_arg4 main_arg5 main_arg6 main_v13 main_v16
-- ==== Kernel.lean ====
abbrev S128x1x64 : Shape := ⟨3, ![128, 1, 64]⟩
abbrev S128x8192x64 : Shape := ⟨3, ![128, 8192, 64]⟩
abbrev S128x1x8192 : Shape := ⟨3, ![128, 1, 8192]⟩
abbrev S128x4096x128 : Shape := ⟨3, ![128, 4096, 128]⟩
abbrev S128x1x4096x2 : Shape := ⟨4, ![128, 1, 4096, 2]⟩
abbrev S128x1x2x4096 : Shape := ⟨4, ![128, 1, 2, 4096]⟩
abbrev S16x1x64 : Shape := ⟨3, ![16, 1, 64]⟩
abbrev S16x512x128 : Shape := ⟨3, ![16, 512, 128]⟩
abbrev S16x1x2x512 : Shape := ⟨4, ![16, 1, 2, 512]⟩
abbrev S16x1x1 : Shape := ⟨3, ![16, 1, 1]⟩
abbrev S16x512x64 : Shape := ⟨3, ![16, 512, 64]⟩
abbrev S16x1x1x512 : Shape := ⟨4, ![16, 1, 1, 512]⟩
abbrev S16x1x512 : Shape := ⟨3, ![16, 1, 512]⟩
abbrev S16x1 : Shape := ⟨2, ![16, 1]⟩

abbrev nBuf : Space → Nat
  | .hbm => 12
  | .vmem => 19
  | .smem => 0
  | _ => 0

abbrev bufTy : (tb : Table) → Fin (tcTables nBuf tb) → BufTy
  | .hbm, ⟨0, _⟩ => ⟨S128x1x64, .f32⟩
  | .hbm, ⟨1, _⟩ => ⟨S128x8192x64, .f32⟩
  | .hbm, ⟨2, _⟩ => ⟨S128x8192x64, .f32⟩
  | .hbm, ⟨3, _⟩ => ⟨S128x1x64, .f32⟩
  | .hbm, ⟨4, _⟩ => ⟨S128x1x64, .f32⟩
  | .hbm, ⟨5, _⟩ => ⟨S128x1x64, .f32⟩
  | .hbm, ⟨6, _⟩ => ⟨S128x1x8192, .f32⟩
  | .hbm, ⟨7, _⟩ => ⟨S128x4096x128, .f32⟩
  | .hbm, ⟨8, _⟩ => ⟨S128x4096x128, .f32⟩
  | .hbm, ⟨9, _⟩ => ⟨S128x1x4096x2, .f32⟩
  | .hbm, ⟨10, _⟩ => ⟨S128x1x2x4096, .f32⟩
  | .hbm, ⟨11, _⟩ => ⟨S128x1x64, .f32⟩
  | .local _ .vmem, ⟨0, _⟩ => ⟨S16x1x64, .f32⟩
  | .local _ .vmem, ⟨1, _⟩ => ⟨S16x1x64, .f32⟩
  | .local _ .vmem, ⟨2, _⟩ => ⟨S16x512x128, .f32⟩
  | .local _ .vmem, ⟨3, _⟩ => ⟨S16x512x128, .f32⟩
  | .local _ .vmem, ⟨4, _⟩ => ⟨S16x512x128, .f32⟩
  | .local _ .vmem, ⟨5, _⟩ => ⟨S16x512x128, .f32⟩
  | .local _ .vmem, ⟨6, _⟩ => ⟨S16x1x2x512, .f32⟩
  | .local _ .vmem, ⟨7, _⟩ => ⟨S16x1x2x512, .f32⟩
  | .local _ .vmem, ⟨8, _⟩ => ⟨S16x1x64, .f32⟩
  | .local _ .vmem, ⟨9, _⟩ => ⟨S16x1x64, .f32⟩
  | .local _ .vmem, ⟨10, _⟩ => ⟨S16x1x64, .f32⟩
  | .local _ .vmem, ⟨11, _⟩ => ⟨S16x1x64, .f32⟩
  | .local _ .vmem, ⟨12, _⟩ => ⟨S16x1x64, .f32⟩
  | .local _ .vmem, ⟨13, _⟩ => ⟨S16x1x64, .f32⟩
  | .local _ .vmem, ⟨14, _⟩ => ⟨S16x1x64, .f32⟩
  | .local _ .vmem, ⟨15, _⟩ => ⟨S16x1x64, .f32⟩
  | .local _ .vmem, ⟨16, _⟩ => ⟨S16x1x1, .f32⟩
  | .local _ .vmem, ⟨17, _⟩ => ⟨S16x1x1, .f32⟩
  | .local _ .vmem, ⟨18, _⟩ => ⟨S16x1x64, .f32⟩
  | _, _ => ⟨S128x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_41 : BitVec 32 := 0#32
  let v69 : BitVec 1 := Scalar.cmpi .ne v68 c0_i32_41
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S128x8192x64_S128x4096x128 : S128x8192x64.ShapeCasts S128x4096x128
  shapeCasts_S128x1x8192_S128x1x4096x2 : S128x1x8192.ShapeCasts S128x1x4096x2
  transposes_S128x1x4096x2_S128x1x2x4096_0_1_3_2 : S128x1x4096x2.Transposes [0, 1, 3, 2] S128x1x2x4096
  inb_S16x1x1_S16x1x1_0_0_0 : ∀ a, (![0, 0, 0] : Fin 3 → Nat) a + S16x1x1.size a ≤ S16x1x1.size a
  h_S16x1x1 : 0 < S16x1x1.numel
  shapeCasts_S16x1x1_S16x1x1 : S16x1x1.ShapeCasts S16x1x1
  inb_S16x1x64_S16x1x64_0_0_0 : ∀ a, (![0, 0, 0] : Fin 3 → Nat) a + S16x1x64.size a ≤ S16x1x64.size a
  h_S16x1x64 : 0 < S16x1x64.numel
  shapeCasts_S16x1x64_S16x1x64 : S16x1x64.ShapeCasts S16x1x64
  bitsLt_bf16_f32 : FTy.bits .bf16 < FTy.bits .f32
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  slices_S16x512x128_o0_0_0_S16x512x64 : S16x512x128.Slices ![0, 0, 0] S16x512x64
  slices_S16x512x128_o0_0_64_S16x512x64 : S16x512x128.Slices ![0, 0, 64] S16x512x64
  inb_S16x1x2x512_S16x1x2x512_0_0_0_0 : ∀ a, (![0, 0, 0, 0] : Fin 4 → Nat) a + S16x1x2x512.size a ≤ S16x1x2x512.size a
  h_S16x1x2x512 : 0 < S16x1x2x512.numel
  shapeCasts_S16x1x2x512_S16x1x2x512 : S16x1x2x512.ShapeCasts S16x1x2x512
  slices_S16x1x2x512_o0_0_0_0_S16x1x1x512 : S16x1x2x512.Slices ![0, 0, 0, 0] S16x1x1x512
  shapeCasts_S16x1x1x512_S16x1x512 : S16x1x1x512.ShapeCasts S16x1x512
  slices_S16x1x2x512_o0_0_1_0_S16x1x1x512 : S16x1x2x512.Slices ![0, 0, 1, 0] S16x1x1x512
  reduces_S16x1x512_S16x1 : S16x1x512.Reduces [2] S16x1
  shapeCasts_S16x1_S16x1x1 : S16x1.ShapeCasts S16x1x1
  broadcasts_S16x1x1_S16x1x512 : S16x1x1.Broadcasts S16x1x512
  broadcasts_S16x1x1_S16x1x64 : S16x1x1.Broadcasts S16x1x64
  reduces_S16x1x1_S16x1 : S16x1x1.Reduces [2] S16x1
  dot_S16x1x64_S16x512x64_S16x1x512_2_2_1_1_0_0_wf : DotDims.WF S16x1x64 S16x512x64 S16x1x512 [2] [2] [1] [1] [0] [0]
  dot_S16x1x512_S16x512x64_S16x1x64_2_1_1_2_0_0_wf : DotDims.WF S16x1x512 S16x512x64 S16x1x64 [2] [1] [1] [2] [0] [0]
  dot_S16x1x64_S16x1x64_S16x1x1_2_2_1_1_0_0_wf : DotDims.WF S16x1x64 S16x1x64 S16x1x1 [2] [2] [1] [1] [0] [0]
  dot_S16x1x1_S16x1x64_S16x1x64_2_1_1_2_0_0_wf : DotDims.WF S16x1x1 S16x1x64 S16x1x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x64.size a ≤ S128x1x64.size a
  hwx0_0 : ∀ i : grid0.Coords, EltTy.bits .f32 = 32 ∨ (Rect.block (s := S128x1x64) S16x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x128.size a ≤ S128x4096x128.size a
  hwx0_1 : ∀ i : grid0.Coords, EltTy.bits .f32 = 32 ∨ (Rect.block (s := S128x4096x128) S16x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x128.size a ≤ S128x4096x128.size a
  hwx0_2 : ∀ i : grid0.Coords, EltTy.bits .f32 = 32 ∨ (Rect.block (s := S128x4096x128) S16x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x2x512.size a ≤ S128x1x2x4096.size a
  hwx0_3 : ∀ i : grid0.Coords, EltTy.bits .f32 = 32 ∨ (Rect.block (s := S128x1x2x4096) S16x1x2x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x64.size a ≤ S128x1x64.size a
  hwx0_4 : ∀ i : grid0.Coords, EltTy.bits .f32 = 32 ∨ (Rect.block (s := S128x1x64) S16x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1x64.size a ≤ S128x1x64.size a
  hwx0_5 : ∀ i : grid0.Coords, EltTy.bits .f32 = 32 ∨ (Rect.block (s := S128x1x64) S16x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x1x64.size a ≤ S128x1x64.size a
  hwx0_6 : ∀ i : grid0.Coords, EltTy.bits .f32 = 32 ∨ (Rect.block (s := S128x1x64) S16x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1x64.size a ≤ S128x1x64.size a
  hwx0_7 : ∀ i : grid0.Coords, EltTy.bits .f32 = 32 ∨ (Rect.block (s := S128x1x64) S16x1x64.size (cc0_transform_7 i) (hinb0_7 i)).WholeWords (EltTy.packing .f32)

variable [Facts₀]

def dot_S16x1x64_S16x512x64_S16x1x512_2_2_1_1_0_0 : DotDims S16x1x64 S16x512x64 S16x1x512 where
  lhsContracting := [2]
  rhsContracting := [2]
  lhsNonContracting := [1]
  rhsNonContracting := [1]
  lhsBatch := [0]
  rhsBatch := [0]
  wf := dot_S16x1x64_S16x512x64_S16x1x512_2_2_1_1_0_0_wf
def dot_S16x1x512_S16x512x64_S16x1x64_2_1_1_2_0_0 : DotDims S16x1x512 S16x512x64 S16x1x64 where
  lhsContracting := [2]
  rhsContracting := [1]
  lhsNonContracting := [1]
  rhsNonContracting := [2]
  lhsBatch := [0]
  rhsBatch := [0]
  wf := dot_S16x1x512_S16x512x64_S16x1x64_2_1_1_2_0_0_wf
def dot_S16x1x64_S16x1x64_S16x1x1_2_2_1_1_0_0 : DotDims S16x1x64 S16x1x64 S16x1x1 where
  lhsContracting := [2]
  rhsContracting := [2]
  lhsNonContracting := [1]
  rhsNonContracting := [1]
  lhsBatch := [0]
  rhsBatch := [0]
  wf := dot_S16x1x64_S16x1x64_S16x1x1_2_2_1_1_0_0_wf
def dot_S16x1x1_S16x1x64_S16x1x64_2_1_1_2_0_0 : DotDims S16x1x1 S16x1x64 S16x1x64 where
  lhsContracting := [2]
  rhsContracting := [1]
  lhsNonContracting := [1]
  rhsNonContracting := [2]
  lhsBatch := [0]
  rhsBatch := [0]
  wf := dot_S16x1x1_S16x1x64_S16x1x64_2_1_1_2_0_0_wf

abbrev win0_0 : Pipeline.Window sig grid0 :=
  Pipeline.Window.ofSpec (Memref.whole main_arg0) S16x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1x2x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16x1x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S16x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S128x1x64 : Shape := ⟨3, ![128, 1, 64]⟩
abbrev S128x8192x64 : Shape := ⟨3, ![128, 8192, 64]⟩
abbrev S128x1x8192 : Shape := ⟨3, ![128, 1, 8192]⟩
abbrev S_ : Shape := ⟨0, ![]⟩
abbrev S128x1 : Shape := ⟨2, ![128, 1]⟩
abbrev S128x1x1 : Shape := ⟨3, ![128, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S128x1x64, .f32⟩
  | .hbm, ⟨1, _⟩ => ⟨S128x8192x64, .f32⟩
  | .hbm, ⟨2, _⟩ => ⟨S128x8192x64, .f32⟩
  | .hbm, ⟨3, _⟩ => ⟨S128x1x64, .f32⟩
  | .hbm, ⟨4, _⟩ => ⟨S128x1x64, .f32⟩
  | .hbm, ⟨5, _⟩ => ⟨S128x1x64, .f32⟩
  | .hbm, ⟨6, _⟩ => ⟨S128x1x8192, .f32⟩
  | .hbm, ⟨7, _⟩ => ⟨S128x1x8192, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S128x1x8192, .f32⟩
  | .hbm, ⟨12, _⟩ => ⟨S128x1x8192, .f32⟩
  | .hbm, ⟨13, _⟩ => ⟨S128x1x8192, .f32⟩
  | .hbm, ⟨14, _⟩ => ⟨S128x1x8192, .f32⟩
  | .hbm, ⟨15, _⟩ => ⟨S128x1x64, .f32⟩
  | .hbm, ⟨16, _⟩ => ⟨S_, .f32⟩
  | .hbm, ⟨17, _⟩ => ⟨S128x1, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1, .f32⟩
  | .hbm, ⟨22, _⟩ => ⟨S_, .f32⟩
  | .hbm, ⟨23, _⟩ => ⟨S128x1, .f32⟩
  | .hbm, ⟨24, _⟩ => ⟨S128x1x1, .f32⟩
  | .hbm, ⟨25, _⟩ => ⟨S128x1x64, .f32⟩
  | .hbm, ⟨26, _⟩ => ⟨S_, .f32⟩
  | .hbm, ⟨27, _⟩ => ⟨S128x1x64, .f32⟩
  | .hbm, ⟨28, _⟩ => ⟨S128x1x64, .f32⟩
  | .hbm, ⟨29, _⟩ => ⟨S128x1x64, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S128x1x1, .f32⟩
  | .hbm, ⟨34, _⟩ => ⟨S128x1x64, .f32⟩
  | .hbm, ⟨35, _⟩ => ⟨S128x1x64, .f32⟩
  | _, _ => ⟨S128x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S128x1x8192_S128x1_d2 : S128x1x8192.ReducesTo [2] S128x1
  h_S_ : 0 < S_.numel
  bcast_S128x1_S128x1x1_0_1 : S128x1.BroadcastsInDim S128x1x1 (![0, 1] : Fin 2 → Fin S128x1x1.rank)
  bcast_S128x1x1_S128x1x8192_0_1_2 : S128x1x1.BroadcastsInDim S128x1x8192 (![0, 1, 2] : Fin 3 → Fin S128x1x8192.rank)
  reducesTo_S128x1x1_S128x1_d2 : S128x1x1.ReducesTo [2] S128x1
  bcast_S_S128x1x64 : S_.BroadcastsInDim S128x1x64 (![] : Fin 0 → Fin S128x1x64.rank)
  bcast_S_S128x1x1 : S_.BroadcastsInDim S128x1x1 (![] : Fin 0 → Fin S128x1x1.rank)
  bcast_S128x1x1_S128x1x64_0_1_2 : S128x1x1.BroadcastsInDim S128x1x64 (![0, 1, 2] : Fin 3 → Fin S128x1x64.rank)
  dot_S128x1x64_S128x8192x64_S128x1x8192_2_2_1_1_0_0_wf : DotDims.WF S128x1x64 S128x8192x64 S128x1x8192 [2] [2] [1] [1] [0] [0]
  dot_S128x1x8192_S128x8192x64_S128x1x64_2_1_1_2_0_0_wf : DotDims.WF S128x1x8192 S128x8192x64 S128x1x64 [2] [1] [1] [2] [0] [0]
  dot_S128x1x64_S128x1x64_S128x1x1_2_2_1_1_0_0_wf : DotDims.WF S128x1x64 S128x1x64 S128x1x1 [2] [2] [1] [1] [0] [0]
  dot_S128x1x1_S128x1x64_S128x1x64_2_1_1_2_0_0_wf : DotDims.WF S128x1x1 S128x1x64 S128x1x64 [2] [1] [1] [2] [0] [0]

variable [Facts₀]

def dot_S128x1x64_S128x8192x64_S128x1x8192_2_2_1_1_0_0 : DotDims S128x1x64 S128x8192x64 S128x1x8192 where
  lhsContracting := [2]
  rhsContracting := [2]
  lhsNonContracting := [1]
  rhsNonContracting := [1]
  lhsBatch := [0]
  rhsBatch := [0]
  wf := dot_S128x1x64_S128x8192x64_S128x1x8192_2_2_1_1_0_0_wf
def dot_S128x1x8192_S128x8192x64_S128x1x64_2_1_1_2_0_0 : DotDims S128x1x8192 S128x8192x64 S128x1x64 where
  lhsContracting := [2]
  rhsContracting := [1]
  lhsNonContracting := [1]
  rhsNonContracting := [2]
  lhsBatch := [0]
  rhsBatch := [0]
  wf := dot_S128x1x8192_S128x8192x64_S128x1x64_2_1_1_2_0_0_wf
def dot_S128x1x64_S128x1x64_S128x1x1_2_2_1_1_0_0 : DotDims S128x1x64 S128x1x64 S128x1x1 where
  lhsContracting := [2]
  rhsContracting := [2]
  lhsNonContracting := [1]
  rhsNonContracting := [1]
  lhsBatch := [0]
  rhsBatch := [0]
  wf := dot_S128x1x64_S128x1x64_S128x1x1_2_2_1_1_0_0_wf
def dot_S128x1x1_S128x1x64_S128x1x64_2_1_1_2_0_0 : DotDims S128x1x1 S128x1x64 S128x1x64 where
  lhsContracting := [2]
  rhsContracting := [1]
  lhsNonContracting := [1]
  rhsNonContracting := [2]
  lhsBatch := [0]
  rhsBatch := [0]
  wf := dot_S128x1x1_S128x1x64_S128x1x64_2_1_1_2_0_0_wf

class Facts : Prop extends Facts₀ where

variable [Facts]
-- ==== Proof.Pieces.lean ====
/-
  What one grid point leaves behind, as values of the blocks it was handed.

  The body keeps three running quantities for its 16 rows across the key tiles of a row block: the maximum score
  so far, the sum of the weights so far and the weighted sum of the values so far. At a point it takes the new
  maximum of the old one and the tile's scores, rescales the old sum and the old weighted sum by the exponential
  of the old maximum less the new, and adds the tile's weights and weighted values. At the first tile the three
  start from `-∞`, `0` and `0` (the reset the body stores first and reads back); at the last tile the result
  block is computed from the three just updated and the pushed query, key and value. Each store covers its whole
  buffer, and each load reads a whole buffer, so what a buffer holds afterwards is the last stored value, as a
  function of the blocks and of what the point before left.
-/
import proofs.«419862_j18794776888018_3_alg».proof.Proof.Gen.KernelIdeal.Frame
import Idealize.ShloMosaic.Lib.Pipeline.Value
import Idealize.ShloMosaic.Lib.Tactic

noncomputable section

namespace Cert.Attn.Piece

open Idealize.ShloMosaic Idealize.ShloMosaic.TcCoe Idealize.SL.Sem
open Cert.KernelIdeal Cert.KernelIdeal.Gen

variable {F : FTy → Type} [FloatOps F]

theorem hz4 : (![0, 0, 0, 0] : Fin 4 → Nat) = fun _ => 0 := funext fun a => by fin_cases a <;> rfl

theorem hz3 : (![0, 0, 0] : Fin 3 → Nat) = fun _ => 0 := funext fun a => by fin_cases a <;> rfl

variable (c : Dev nD) (i : grid0.Coords) (arg2 : Memref sig .tc .vmem S16x1x64 .f32) (harg2 : arg2.IsWhole) (arg3 : Memref sig .tc .vmem S16x512x128 .f32) (harg3 : arg3.IsWhole) (arg4 : Memref sig .tc .vmem S16x512x128 .f32) (harg4 : arg4.IsWhole) (arg5 : Memref sig .tc .vmem S16x1x2x512 .f32) (harg5 : arg5.IsWhole) (arg6 : Memref sig .tc .vmem S16x1x64 .f32) (harg6 : arg6.IsWhole) (arg7 : Memref sig .tc .vmem S16x1x64 .f32) (harg7 : arg7.IsWhole) (arg8 : Memref sig .tc .vmem S16x1x64 .f32) (harg8 : arg8.IsWhole) (arg9 : Memref sig .tc .vmem S16x1x64 .f32) (harg9 : arg9.IsWhole) (arg10 : Memref sig .tc .vmem S16x1x1 .f32) (harg10 : arg10.IsWhole) (arg11 : Memref sig .tc .vmem S16x1x1 .f32) (harg11 : arg11.IsWhole) (arg12 : Memref sig .tc .vmem S16x1x64 .f32) (harg12 : arg12.IsWhole)
    (x0 : Vec F S16x1x64 .f32) (x1 : Vec F S16x512x128 .f32) (x2 : Vec F S16x512x128 .f32) (x3 : Vec F S16x1x2x512 .f32) (x4 : Vec F S16x1x64 .f32) (x5 : Vec F S16x1x64 .f32) (x6 : Vec F S16x1x64 .f32) (xs0 : Vec F S16x1x1 .f32) (xs1 : Vec F S16x1x1 .f32) (xs2 : Vec F S16x1x64 .f32)

theorem sout_B_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay22 (k0_pay15 x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_B_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay20 (k0_pay11 x3) (k0_pay12 x3) (k0_pay13 x0 x1) (k0_pay14 x0 x1) (k0_pay15 x0 x1 xs0) (k0_pay16 x0 x1 xs0 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_B_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay21 (k0_pay8 x2) (k0_pay9 x2) (k0_pay11 x3) (k0_pay12 x3) (k0_pay13 x0 x1) (k0_pay14 x0 x1) (k0_pay15 x0 x1 xs0) (k0_pay16 x0 x1 xs0 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_C_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay22 (k0_pay15 x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_C_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay20 (k0_pay11 x3) (k0_pay12 x3) (k0_pay13 x0 x1) (k0_pay14 x0 x1) (k0_pay15 x0 x1 xs0) (k0_pay16 x0 x1 xs0 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_C_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay21 (k0_pay8 x2) (k0_pay9 x2) (k0_pay11 x3) (k0_pay12 x3) (k0_pay13 x0 x1) (k0_pay14 x0 x1) (k0_pay15 x0 x1 xs0) (k0_pay16 x0 x1 xs0 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem out_C_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 x4 x5 x6 (k0_pay22 (k0_pay15 x0 x1 xs0)) (k0_pay21 (k0_pay8 x2) (k0_pay9 x2) (k0_pay11 x3) (k0_pay12 x3) (k0_pay13 x0 x1) (k0_pay14 x0 x1) (k0_pay15 x0 x1 xs0) (k0_pay16 x0 x1 xs0 xs0) xs2) (k0_pay20 (k0_pay11 x3) (k0_pay12 x3) (k0_pay13 x0 x1) (k0_pay14 x0 x1) (k0_pay15 x0 x1 xs0) (k0_pay16 x0 x1 xs0 xs0) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay22 (k0_pay15 x0 x1 (k0_pay2 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S16x1x1) hz3, View.readCov_unit_zero (S := S16x1x1) _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay20 (k0_pay11 x3) (k0_pay12 x3) (k0_pay13 x0 x1) (k0_pay14 x0 x1) (k0_pay15 x0 x1 (k0_pay2 (F := F))) (k0_pay16 x0 x1 (k0_pay2 (F := F)) (k0_pay2 (F := F))) (k0_pay3 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S16x1x1) hz3, View.readCov_unit_zero (S := S16x1x1) _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay21 (k0_pay8 x2) (k0_pay9 x2) (k0_pay11 x3) (k0_pay12 x3) (k0_pay13 x0 x1) (k0_pay14 x0 x1) (k0_pay15 x0 x1 (k0_pay2 (F := F))) (k0_pay16 x0 x1 (k0_pay2 (F := F)) (k0_pay2 (F := F))) (k0_pay4 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S16x1x64) hz3, View.readCov_unit_zero (S := S16x1x64) _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S16x1x64) hz3, View.ld_unit_zero (S := S16x512x128) hz3, View.ld_unit_zero (S := S16x1x1) hz3,
    View.ld_unit_zero (S := S16x1x2x512) hz4, View.readCov_unit_zero (S := S16x1x1) _ hz3, View.readCov_unit_zero (S := S16x1x64) _ hz3]

end Cert.Attn.Piece

end
-- ==== Proof.Tiles.lean ====
/-
  The key positions of one row, cut into the tiles the kernel streams.

  A row has 8192 key positions. The kernel takes them in 8 tiles of 1024; inside a tile it holds them as 512
  pairs, the even position `2r` and the odd position `2r + 1` of pair `r` side by side. So position
  `1024·j + 2·r + c` is pair `r`, parity `c`, of tile `j`. `tile j` is the set of positions of tile `j`,
  `done n` the set of positions of the first `n` tiles; a sum or a maximum over a tile splits into the even
  and the odd half, each indexed by the pair.
-/
import Mathlib.Algebra.BigOperators.Fin
import Mathlib.Data.Finset.Lattice.Fold
import Mathlib.Data.EReal.Basic

noncomputable section

open scoped BigOperators

namespace Cert.Attn

/-- Pair `r`, parity `c`, of tile `j` as a key position. -/
def pos (j : Fin 8) (r : Fin 512) (c : Fin 2) : Fin 8192 :=
  ⟨1024 * j.val + 2 * r.val + c.val, by have := j.isLt; have := r.isLt; have := c.isLt; omega⟩

/-- The positions of tile `j`. -/
def tile (j : Fin 8) : Finset (Fin 8192) := Finset.univ.filter fun p => p.val / 1024 = j.val

/-- The positions of the first `n` tiles. -/
def done (n : ℕ) : Finset (Fin 8192) := Finset.univ.filter fun p => p.val / 1024 < n

theorem done_zero : done 0 = ∅ := by
  ext p
  simp [done]

theorem done_succ (j : Fin 8) : done (j.val + 1) = done j.val ∪ tile j := by
  ext p
  simp only [done, tile, Finset.mem_union, Finset.mem_filter, Finset.mem_univ, true_and]
  omega

theorem done_disjoint (j : Fin 8) : Disjoint (done j.val) (tile j) := by
  rw [Finset.disjoint_left]
  intro p hp hq
  simp only [done, tile, Finset.mem_filter, Finset.mem_univ, true_and] at hp hq
  omega

theorem tile_nonempty (j : Fin 8) : (tile j).Nonempty := by
  refine ⟨pos j 0 0, ?_⟩
  have := j.isLt
  simp only [tile, pos, Finset.mem_filter, Finset.mem_univ, true_and, Fin.val_zero]
  omega

theorem done_eight : done 8 = Finset.univ := by
  ext p
  have := p.isLt
  simp only [done, Finset.mem_filter, Finset.mem_univ, true_and, iff_true]
  omega

/-- Within one tile and one parity, distinct pairs sit at distinct positions. -/
theorem pos_injective (j : Fin 8) (c : Fin 2) : Function.Injective fun r : Fin 512 => pos j r c := by
  intro r s h
  have h' := congrArg Fin.val h
  simp only [pos] at h'
  exact Fin.ext (by omega)

/-- A tile is its even positions together with its odd positions: position `p` of tile `j` is pair
`(p - 1024·j) / 2`, with parity `(p - 1024·j) % 2`. -/
theorem tile_eq_union (j : Fin 8) :
    tile j = (Finset.univ.image fun r : Fin 512 => pos j r 0) ∪
      (Finset.univ.image fun r : Fin 512 => pos j r 1) := by
  ext p
  simp only [tile, Finset.mem_filter, Finset.mem_univ, true_and, Finset.mem_union, Finset.mem_image]
  constructor
  · intro h
    have hp := p.isLt
    rcases Nat.mod_two_eq_zero_or_one (p.val - 1024 * j.val) with h2 | h2
    · left
      refine ⟨⟨(p.val - 1024 * j.val) / 2, by omega⟩, ?_⟩
      apply Fin.ext
      simp only [pos, Fin.val_zero]
      omega
    · right
      refine ⟨⟨(p.val - 1024 * j.val) / 2, by omega⟩, ?_⟩
      apply Fin.ext
      simp only [pos, Fin.val_one]
      omega
  · rintro (⟨r, rfl⟩ | ⟨r, rfl⟩)
    · have := r.isLt
      simp only [pos, Fin.val_zero]
      omega
    · have := r.isLt
      simp only [pos, Fin.val_one]
      omega

/-- An even position is never an odd one. -/
theorem halves_disjoint (j : Fin 8) :
    Disjoint (Finset.univ.image fun r : Fin 512 => pos j r 0)
      (Finset.univ.image fun r : Fin 512 => pos j r 1) := by
  rw [Finset.disjoint_left]
  intro p hp hq
  simp only [Finset.mem_image, Finset.mem_univ, true_and] at hp hq
  obtain ⟨r, rfl⟩ := hp
  obtain ⟨s, hs⟩ := hq
  have h' := congrArg Fin.val hs
  simp only [pos, Fin.val_zero, Fin.val_one] at h'
  omega

/-- A sum over a tile is the sum over its even positions plus the sum over its odd ones. -/
theorem sum_tile {M : Type*} [AddCommMonoid M] (j : Fin 8) (f : Fin 8192 → M) :
    ∑ p ∈ tile j, f p = ∑ r : Fin 512, f (pos j r 0) + ∑ r : Fin 512, f (pos j r 1) := by
  rw [tile_eq_union, Finset.sum_union (halves_disjoint j),
    Finset.sum_image (fun r _ s _ h => pos_injective j 0 h),
    Finset.sum_image (fun r _ s _ h => pos_injective j 1 h)]

/-- A maximum over a tile is the larger of the maxima over its even and its odd positions. -/
theorem sup_tile (j : Fin 8) (f : Fin 8192 → EReal) :
    (tile j).sup f = max (Finset.univ.sup fun r : Fin 512 => f (pos j r 0)) (Finset.univ.sup fun r : Fin 512 => f (pos j r 1)) := by
  rw [tile_eq_union, Finset.sup_union, Finset.sup_image, Finset.sup_image]
  rfl

end Cert.Attn

end
-- ==== Proof.Blocks.lean ====
/-
  The blocks the kernel is handed at a grid point, read off the argument arrays.

  The grid has 8 × 8 points; point `t` is row block `t / 8` (16 of the 128 rows) and key tile `t % 8` (1024 of the
  8192 positions). The query, pushed query, pushed key and pushed value windows hand over the 16 rows of their
  array. The key and value arrays are first regrouped, two consecutive positions to a row of 128 lanes, so the
  block's row `r`, lane `64·c + e` is position `1024·(t % 8) + 2·r + c`, feature `e`; the mask is regrouped
  the same way and then laid out parity first, so its block's entry `(c, r)` is the mask at that same position.
-/
import proofs.«419862_j18794776888018_3_alg».proof.Proof.Gen.KernelIdeal.Frame
import proofs.«419862_j18794776888018_3_alg».proof.Proof.Tiles
import Idealize.ShloMosaic.Lib.Pipeline.Value
import Idealize.ShloMosaic.Lib.ValueIdx
import Idealize.ShloMosaic.Lib.ValueLayout

noncomputable section

namespace Cert.Attn.Blk

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The row of the batch that row `bb` of point `n`'s blocks is. -/
def rowOf (n : ℕ) (bb : Fin 16) : Fin 128 := ⟨(16 * (n / 8) + bb.val) % 128, Nat.mod_lt _ (by decide)⟩
/-- The key tile of point `n`. -/
def tileOf (n : ℕ) : Fin 8 := ⟨n % 8, Nat.mod_lt _ (by decide)⟩

/-- Lane `64·c + e` of a packed row. -/
def lane (c : Fin 2) (e : Fin 64) : Fin 128 := ⟨64 * c.val + e.val, by have := c.isLt; have := e.isLt; omega⟩

/-- The argument arrays, at their literal types. -/
abbrev Qarr (c : Dev nD) : Vec Ideal S128x1x64 .f32 := m ((c.tc : Thread nD τ).loc main_arg0)
abbrev Karr (c : Dev nD) : Vec Ideal S128x8192x64 .f32 := m ((c.tc : Thread nD τ).loc main_arg1)
abbrev Varr (c : Dev nD) : Vec Ideal S128x8192x64 .f32 := m ((c.tc : Thread nD τ).loc main_arg2)
abbrev QParr (c : Dev nD) : Vec Ideal S128x1x64 .f32 := m ((c.tc : Thread nD τ).loc main_arg3)
abbrev KParr (c : Dev nD) : Vec Ideal S128x1x64 .f32 := m ((c.tc : Thread nD τ).loc main_arg4)
abbrev VParr (c : Dev nD) : Vec Ideal S128x1x64 .f32 := m ((c.tc : Thread nD τ).loc main_arg5)
abbrev Warr (c : Dev nD) : Vec Ideal S128x1x8192 .f32 := m ((c.tc : Thread nD τ).loc main_arg6)

/-- The blocks at a point, at their literal types. -/
abbrev qblk (c : Dev nD) (t : Fin cfg0.N) : Vec Ideal S16x1x64 .f32 := iblk m c 0 t
abbrev kblk (c : Dev nD) (t : Fin cfg0.N) : Vec Ideal S16x512x128 .f32 := iblk m c 1 t
abbrev vblk (c : Dev nD) (t : Fin cfg0.N) : Vec Ideal S16x512x128 .f32 := iblk m c 2 t
abbrev wblk (c : Dev nD) (t : Fin cfg0.N) : Vec Ideal S16x1x2x512 .f32 := iblk m c 3 t
abbrev qpblk (c : Dev nD) (t : Fin cfg0.N) : Vec Ideal S16x1x64 .f32 := iblk m c 4 t
abbrev kpblk (c : Dev nD) (t : Fin cfg0.N) : Vec Ideal S16x1x64 .f32 := iblk m c 5 t
abbrev vpblk (c : Dev nD) (t : Fin cfg0.N) : Vec Ideal S16x1x64 .f32 := iblk m c 6 t

/-! ## Where each window's block sits: the block indices at a point, decided over the 64 points -/

/-- The query window's block index at point `t` is `(t / 8, 0, 0)`. -/
theorem idx_rows0 : ∀ t : Fin cfg0.N, win0_0.index t (0 : Fin 3) = t.val / 8
    ∧ win0_0.index t (1 : Fin 3) = 0 ∧ win0_0.index t (2 : Fin 3) = 0 :=
  (by decide +kernel : ∀ t : Fin grid0.N, _)

/-- The key window's block index at point `t` is `(t / 8, t % 8, 0)`. -/
theorem idx_pairs1 : ∀ t : Fin cfg0.N, win0_1.index t (0 : Fin 3) = t.val / 8
    ∧ win0_1.index t (1 : Fin 3) = t.val % 8 ∧ win0_1.index t (2 : Fin 3) = 0 :=
  (by decide +kernel : ∀ t : Fin grid0.N, _)

/-- The value window's block index at point `t` is `(t / 8, t % 8, 0)`. -/
theorem idx_pairs2 : ∀ t : Fin cfg0.N, win0_2.index t (0 : Fin 3) = t.val / 8
    ∧ win0_2.index t (1 : Fin 3) = t.val % 8 ∧ win0_2.index t (2 : Fin 3) = 0 :=
  (by decide +kernel : ∀ t : Fin grid0.N, _)

/-- The mask window's block index at point `t` is `(t / 8, 0, 0, t % 8)`. -/
theorem idx_mask3 : ∀ t : Fin cfg0.N, win0_3.index t (0 : Fin 4) = t.val / 8 ∧ win0_3.index t (1 : Fin 4) = 0
    ∧ win0_3.index t (2 : Fin 4) = 0 ∧ win0_3.index t (3 : Fin 4) = t.val % 8 :=
  (by decide +kernel : ∀ t : Fin grid0.N, _)

/-- The pushed query window's block index at point `t` is `(t / 8, 0, 0)`. -/
theorem idx_rows4 : ∀ t : Fin cfg0.N, win0_4.index t (0 : Fin 3) = t.val / 8
    ∧ win0_4.index t (1 : Fin 3) = 0 ∧ win0_4.index t (2 : Fin 3) = 0 :=
  (by decide +kernel : ∀ t : Fin grid0.N, _)

/-- The pushed key window's block index at point `t` is `(t / 8, 0, 0)`. -/
theorem idx_rows5 : ∀ t : Fin cfg0.N, win0_5.index t (0 : Fin 3) = t.val / 8
    ∧ win0_5.index t (1 : Fin 3) = 0 ∧ win0_5.index t (2 : Fin 3) = 0 :=
  (by decide +kernel : ∀ t : Fin grid0.N, _)

/-- The pushed value window's block index at point `t` is `(t / 8, 0, 0)`. -/
theorem idx_rows6 : ∀ t : Fin cfg0.N, win0_6.index t (0 : Fin 3) = t.val / 8
    ∧ win0_6.index t (1 : Fin 3) = 0 ∧ win0_6.index t (2 : Fin 3) = 0 :=
  (by decide +kernel : ∀ t : Fin grid0.N, _)

/-! ## The regrouped arrays -/

/-- The regrouped key array is the key array read at the same row-major position. -/
theorem keys_regrouped (c : Dev nD) : (V m c main_v0 : S128x4096x128.Idx → EReal) =
    shapeCast S128x4096x128 (m ((c : Thread nD τ).loc main_arg1)) shapeCasts_S128x8192x64_S128x4096x128 := by
  dsimp only [Gen.V, Gen.hostOps0]
  after_results
  rfl

/-- The regrouped value array is the value array read at the same row-major position. -/
theorem values_regrouped (c : Dev nD) : (V m c main_v1 : S128x4096x128.Idx → EReal) =
    shapeCast S128x4096x128 (m ((c : Thread nD τ).loc main_arg2)) shapeCasts_S128x8192x64_S128x4096x128 := by
  dsimp only [Gen.V, Gen.hostOps0]
  after_results
  rfl

/-- The mask is regrouped into pairs and then laid out parity first. -/
theorem mask_parity_first (c : Dev nD) : (V m c main_v3 : S128x1x2x4096.Idx → EReal) =
    transpose S128x1x2x4096 [0, 1, 3, 2]
      (shapeCast S128x1x4096x2 (m ((c : Thread nD τ).loc main_arg6)) shapeCasts_S128x1x8192_S128x1x4096x2)
      transposes_S128x1x4096x2_S128x1x2x4096_0_1_3_2 := by
  dsimp only [Gen.V, Gen.hostOps0]
  after_results
  rfl

/-- Two positions to a row of 128 lanes: entry `(a, q, l)` of the regrouped array with `128·q + l = 64·p + e` is
    entry `(a, p, e)` of the array — both are row-major position `(8192·a + p)·64 + e`. -/
theorem regroup_apply (x : Vec Ideal S128x8192x64 .f32) (y : S128x4096x128.Idx) (a : Fin 128) (p : Fin 8192) (e : Fin 64)
    (h0 : (y 0).val = a.val) (h1 : 128 * (y 1).val + (y 2).val = 64 * p.val + e.val) :
    shapeCast S128x4096x128 x shapeCasts_S128x8192x64_S128x4096x128 y = x (ix3 a p e) := by
  refine shapeCast_apply x _ y (ix3 a p e) ?_
  rw [Shape.rowMajor_val_three, Shape.rowMajor_val_three]
  show (a.val * 8192 + p.val) * 64 + e.val = ((y 0).val * 4096 + (y 1).val) * 128 + (y 2).val
  omega

/-- Parity first: entry `(a, 0, c, q)` of the regrouped, parity-first mask is the mask at position `2·q + c` of
    row `a` — the exchange of the last two axes takes it to entry `(a, 0, q, c)` of the regrouped mask, which is
    row-major position `8192·a + 2·q + c`. -/
theorem parity_first_apply (x : Vec Ideal S128x1x8192 .f32) (y : S128x1x2x4096.Idx) (a : Fin 128) (p : Fin 8192)
    (h0 : (y 0).val = a.val) (h1 : 2 * (y 3).val + (y 2).val = p.val) :
    transpose S128x1x2x4096 [0, 1, 3, 2] (shapeCast S128x1x4096x2 x shapeCasts_S128x1x8192_S128x1x4096x2)
      transposes_S128x1x4096x2_S128x1x2x4096_0_1_3_2 y = x (ix3 a 0 p) := by
  have hy1 : (y 1).val < 1 := (y 1).isLt
  have hy2 : (y 2).val < 2 := (y 2).isLt
  have hy3 : (y 3).val < 4096 := (y 3).isLt
  refine (transpose_apply (s := S128x1x4096x2) [0, 1, 3, 2] _ transposes_S128x1x4096x2_S128x1x2x4096_0_1_3_2 y
    (ix4 (y 0) (y 1) (y 3) (y 2)) (fun b => by
    match b with
    | ⟨0, _⟩ => rfl
    | ⟨1, _⟩ => rfl
    | ⟨2, _⟩ => rfl
    | ⟨3, _⟩ => rfl)).trans ?_
  refine shapeCast_apply x _ _ (ix3 a 0 p) ?_
  rw [Shape.rowMajor_val_three, Shape.rowMajor_val_four]
  show (a.val * 1 + 0) * 8192 + p.val = (((y 0).val * 1 + (y 1).val) * 4096 + (y 3).val) * 2 + (y 2).val
  omega

/-! ## The blocks read: a block's coordinate on an axis is its block index times the block's size plus the
    coordinate inside the block -/

theorem qblk_apply (c : Dev nD) (t : Fin cfg0.N) (bb : Fin 16) (e : Fin 64) :
    qblk m c t (ix3 bb 0 e) = Qarr m c (ix3 (rowOf t.val bb) 0 e) := by
  show V m c main_arg0 (((cfg0.win 0).blk t).view.emb (ix3 bb 0 e)) = _
  rw [V_main_arg0]
  obtain ⟨e0, e1, e2⟩ := idx_rows0 t
  have hN : cfg0.N = 64 := N_0
  have ht := t.isLt
  have hb := bb.isLt
  refine congrArg _ (funext fun a => Fin.ext ?_)
  match a with
  | ⟨0, _⟩ =>
    show win0_0.index t (0 : Fin 3) * 16 + 1 * bb.val = (16 * (t.val / 8) + bb.val) % 128
    omega
  | ⟨1, _⟩ =>
    show win0_0.index t (1 : Fin 3) * 1 + 1 * 0 = 0
    omega
  | ⟨2, _⟩ =>
    show win0_0.index t (2 : Fin 3) * 64 + 1 * e.val = e.val
    omega

theorem kblk_apply (c : Dev nD) (t : Fin cfg0.N) (bb : Fin 16) (r : Fin 512) (cc : Fin 2) (e : Fin 64) :
    kblk m c t (ix3 bb r (lane cc e)) = Karr m c (ix3 (rowOf t.val bb) (pos (tileOf t.val) r cc) e) := by
  show V m c main_v0 (((cfg0.win 1).blk t).view.emb (ix3 bb r (lane cc e))) = _
  rw [keys_regrouped]
  obtain ⟨e0, e1, e2⟩ := idx_pairs1 t
  have hN : cfg0.N = 64 := N_0
  have ht := t.isLt
  have hb := bb.isLt
  have hr := r.isLt
  have hc := cc.isLt
  have he := e.isLt
  refine regroup_apply _ _ _ _ _ ?_ ?_
  · show win0_1.index t (0 : Fin 3) * 16 + 1 * bb.val = (16 * (t.val / 8) + bb.val) % 128
    omega
  · show 128 * (win0_1.index t (1 : Fin 3) * 512 + 1 * r.val)
        + (win0_1.index t (2 : Fin 3) * 128 + 1 * (64 * cc.val + e.val))
      = 64 * (1024 * (t.val % 8) + 2 * r.val + cc.val) + e.val
    omega

theorem vblk_apply (c : Dev nD) (t : Fin cfg0.N) (bb : Fin 16) (r : Fin 512) (cc : Fin 2) (d : Fin 64) :
    vblk m c t (ix3 bb r (lane cc d)) = Varr m c (ix3 (rowOf t.val bb) (pos (tileOf t.val) r cc) d) := by
  show V m c main_v1 (((cfg0.win 2).blk t).view.emb (ix3 bb r (lane cc d))) = _
  rw [values_regrouped]
  obtain ⟨e0, e1, e2⟩ := idx_pairs2 t
  have hN : cfg0.N = 64 := N_0
  have ht := t.isLt
  have hb := bb.isLt
  have hr := r.isLt
  have hc := cc.isLt
  have he := d.isLt
  refine regroup_apply _ _ _ _ _ ?_ ?_
  · show win0_2.index t (0 : Fin 3) * 16 + 1 * bb.val = (16 * (t.val / 8) + bb.val) % 128
    omega
  · show 128 * (win0_2.index t (1 : Fin 3) * 512 + 1 * r.val)
        + (win0_2.index t (2 : Fin 3) * 128 + 1 * (64 * cc.val + d.val))
      = 64 * (1024 * (t.val % 8) + 2 * r.val + cc.val) + d.val
    omega

theorem wblk_apply (c : Dev nD) (t : Fin cfg0.N) (bb : Fin 16) (cc : Fin 2) (r : Fin 512) :
    wblk m c t (ix4 bb 0 cc r) = Warr m c (ix3 (rowOf t.val bb) 0 (pos (tileOf t.val) r cc)) := by
  show V m c main_v3 (((cfg0.win 3).blk t).view.emb (ix4 bb 0 cc r)) = _
  rw [mask_parity_first]
  obtain ⟨e0, e1, e2, e3⟩ := idx_mask3 t
  have hN : cfg0.N = 64 := N_0
  have ht := t.isLt
  have hb := bb.isLt
  have hr := r.isLt
  have hc := cc.isLt
  refine parity_first_apply _ _ _ _ ?_ ?_
  · show win0_3.index t (0 : Fin 4) * 16 + 1 * bb.val = (16 * (t.val / 8) + bb.val) % 128
    omega
  · show 2 * (win0_3.index t (3 : Fin 4) * 512 + 1 * r.val) + (win0_3.index t (2 : Fin 4) * 2 + 1 * cc.val)
      = 1024 * (t.val % 8) + 2 * r.val + cc.val
    omega

theorem qpblk_apply (c : Dev nD) (t : Fin cfg0.N) (bb : Fin 16) (e : Fin 64) :
    qpblk m c t (ix3 bb 0 e) = QParr m c (ix3 (rowOf t.val bb) 0 e) := by
  show V m c main_arg3 (((cfg0.win 4).blk t).view.emb (ix3 bb 0 e)) = _
  rw [V_main_arg3]
  obtain ⟨e0, e1, e2⟩ := idx_rows4 t
  have hN : cfg0.N = 64 := N_0
  have ht := t.isLt
  have hb := bb.isLt
  refine congrArg _ (funext fun a => Fin.ext ?_)
  match a with
  | ⟨0, _⟩ =>
    show win0_4.index t (0 : Fin 3) * 16 + 1 * bb.val = (16 * (t.val / 8) + bb.val) % 128
    omega
  | ⟨1, _⟩ =>
    show win0_4.index t (1 : Fin 3) * 1 + 1 * 0 = 0
    omega
  | ⟨2, _⟩ =>
    show win0_4.index t (2 : Fin 3) * 64 + 1 * e.val = e.val
    omega

theorem kpblk_apply (c : Dev nD) (t : Fin cfg0.N) (bb : Fin 16) (e : Fin 64) :
    kpblk m c t (ix3 bb 0 e) = KParr m c (ix3 (rowOf t.val bb) 0 e) := by
  show V m c main_arg4 (((cfg0.win 5).blk t).view.emb (ix3 bb 0 e)) = _
  rw [V_main_arg4]
  obtain ⟨e0, e1, e2⟩ := idx_rows5 t
  have hN : cfg0.N = 64 := N_0
  have ht := t.isLt
  have hb := bb.isLt
  refine congrArg _ (funext fun a => Fin.ext ?_)
  match a with
  | ⟨0, _⟩ =>
    show win0_5.index t (0 : Fin 3) * 16 + 1 * bb.val = (16 * (t.val / 8) + bb.val) % 128
    omega
  | ⟨1, _⟩ =>
    show win0_5.index t (1 : Fin 3) * 1 + 1 * 0 = 0
    omega
  | ⟨2, _⟩ =>
    show win0_5.index t (2 : Fin 3) * 64 + 1 * e.val = e.val
    omega

theorem vpblk_apply (c : Dev nD) (t : Fin cfg0.N) (bb : Fin 16) (d : Fin 64) :
    vpblk m c t (ix3 bb 0 d) = VParr m c (ix3 (rowOf t.val bb) 0 d) := by
  show V m c main_arg5 (((cfg0.win 6).blk t).view.emb (ix3 bb 0 d)) = _
  rw [V_main_arg5]
  obtain ⟨e0, e1, e2⟩ := idx_rows6 t
  have hN : cfg0.N = 64 := N_0
  have ht := t.isLt
  have hb := bb.isLt
  refine congrArg _ (funext fun a => Fin.ext ?_)
  match a with
  | ⟨0, _⟩ =>
    show win0_6.index t (0 : Fin 3) * 16 + 1 * bb.val = (16 * (t.val / 8) + bb.val) % 128
    omega
  | ⟨1, _⟩ =>
    show win0_6.index t (1 : Fin 3) * 1 + 1 * 0 = 0
    omega
  | ⟨2, _⟩ =>
    show win0_6.index t (2 : Fin 3) * 64 + 1 * d.val = d.val
    omega

end Cert.Attn.Blk

end
-- ==== Proof.PayLayout.lean ====
/-
  The kernel body's smaller values read at an index, at the ideal instance: the two halves of a packed block,
  the scores of a tile and the running maximum.

  A streamed block of keys (or values) holds 512 rows of 128 lanes for each of 16 rows of the batch: lanes 0–63
  are the 64 features of an even key position, lanes 64–127 those of the odd position after it. The mask block
  holds, for each of the 16 rows, the even positions' 512 entries and then the odd positions'. The body slices
  the halves apart, takes the inner product of the row's query with every key of each half (a product into a
  zero accumulator: the plain sum over the 64 features), and the maximum over both halves against the running
  maximum carried from the tile before. Format changes are the identity here.
-/
import proofs.«419862_j18794776888018_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Pay

open Idealize.ShloMosaic Idealize.ShloMosaic.ValueIdx Cert.KernelIdeal Cert.KernelIdeal.Gen

/-- Lane `64·c + e` of a packed row: feature `e` of the even (`c = 0`) or odd (`c = 1`) position. -/
def lane (c : Fin 2) (e : Fin 64) : Fin 128 := ⟨64 * c.val + e.val, by have := c.isLt; have := e.isLt; omega⟩

/-- The word of `-∞` denotes the bottom of the extended reals. -/
theorem ofBits_negInf_f32 : Ideal.ofBits .f32 0xFF800000#32 = (⊥ : EReal) := by simp [Ideal.ofBits, Ideal.ieee]

/-- The reset value of the running maximum is `-∞`. -/
theorem pay2_apply (i : S16x1x1.Idx) : k0_pay2 (F := Ideal) i = (⊥ : EReal) := by
  unfold k0_pay2
  simp only [shapeCast_self, broadcast_apply]
  exact ofBits_negInf_f32

/-- The reset value of the running sum is zero. -/
theorem pay3_apply (i : S16x1x1.Idx) : k0_pay3 (F := Ideal) i = (0 : EReal) := by
  unfold k0_pay3
  simp only [shapeCast_self, broadcast_apply]
  exact Ideal.ofBits_zero_f32

/-- The reset value of the accumulator is zero. -/
theorem pay4_apply (i : S16x1x64.Idx) : k0_pay4 (F := Ideal) i = (0 : EReal) := by
  unfold k0_pay4
  simp only [shapeCast_self, broadcast_apply]
  exact Ideal.ofBits_zero_f32

/-- The even half of a value block. -/
theorem pay8_apply (vb : Vec Ideal S16x512x128 .f32) (bb : Fin 16) (r : Fin 512) (d : Fin 64) :
    k0_pay8 (F := Ideal) vb (ix3 bb r d) = vb (ix3 bb r (lane 0 d)) := by
  unfold k0_pay8 k0_pay7
  refine (extractStridedSlice_apply _ _ _ (ix3 bb r d) (ix3 bb r (lane 0 d)) (fun a => ?_)).trans ?_
  · match a with
    | ⟨0, _⟩ => show bb.val = 0 + bb.val; omega
    | ⟨1, _⟩ => show r.val = 0 + r.val; omega
    | ⟨2, _⟩ => show 64 * (0 : Fin 2).val + d.val = 0 + d.val; simp
  · simp only [truncf_apply, shapeCast_self]

/-- The odd half of a value block. -/
theorem pay9_apply (vb : Vec Ideal S16x512x128 .f32) (bb : Fin 16) (r : Fin 512) (d : Fin 64) :
    k0_pay9 (F := Ideal) vb (ix3 bb r d) = vb (ix3 bb r (lane 1 d)) := by
  unfold k0_pay9 k0_pay7
  refine (extractStridedSlice_apply _ _ _ (ix3 bb r d) (ix3 bb r (lane 1 d)) (fun a => ?_)).trans ?_
  · match a with
    | ⟨0, _⟩ => show bb.val = 0 + bb.val; omega
    | ⟨1, _⟩ => show r.val = 0 + r.val; omega
    | ⟨2, _⟩ => show 64 * (1 : Fin 2).val + d.val = 64 + d.val; simp
  · simp only [truncf_apply, shapeCast_self]

/-- The even positions' mask entries. -/
theorem pay11_apply (wb : Vec Ideal S16x1x2x512 .f32) (bb : Fin 16) (r : Fin 512) :
    k0_pay11 (F := Ideal) wb (ix3 bb 0 r) = wb (ix4 bb 0 0 r) := by
  unfold k0_pay11 k0_pay10
  -- the cast drops the unit axis: same row-major position
  refine (shapeCast_apply _ _ (ix3 bb 0 r) (ix4 bb 0 0 r) ?_).trans ?_
  · rw [Shape.rowMajor_val_four, Shape.rowMajor_val_three]
    show ((bb.val * 1 + 0) * 1 + 0) * 512 + r.val = (bb.val * 1 + 0) * 512 + r.val
    omega
  refine (extractStridedSlice_apply _ _ _ (ix4 bb 0 0 r) (ix4 bb 0 0 r) (fun a => ?_)).trans ?_
  · match a with
    | ⟨0, _⟩ => show bb.val = 0 + bb.val; omega
    | ⟨1, _⟩ => show 0 = 0 + 0; omega
    | ⟨2, _⟩ => show 0 = 0 + 0; omega
    | ⟨3, _⟩ => show r.val = 0 + r.val; omega
  · rw [shapeCast_self]

/-- The odd positions' mask entries. -/
theorem pay12_apply (wb : Vec Ideal S16x1x2x512 .f32) (bb : Fin 16) (r : Fin 512) :
    k0_pay12 (F := Ideal) wb (ix3 bb 0 r) = wb (ix4 bb 0 1 r) := by
  unfold k0_pay12 k0_pay10
  refine (shapeCast_apply _ _ (ix3 bb 0 r) (ix4 bb 0 0 r) ?_).trans ?_
  · rw [Shape.rowMajor_val_four, Shape.rowMajor_val_three]
    show ((bb.val * 1 + 0) * 1 + 0) * 512 + r.val = (bb.val * 1 + 0) * 512 + r.val
    omega
  refine (extractStridedSlice_apply _ _ _ (ix4 bb 0 0 r) (ix4 bb 0 1 r) (fun a => ?_)).trans ?_
  · match a with
    | ⟨0, _⟩ => show bb.val = 0 + bb.val; omega
    | ⟨1, _⟩ => show 0 = 0 + 0; omega
    | ⟨2, _⟩ => show 1 = 1 + 0; omega
    | ⟨3, _⟩ => show r.val = 0 + r.val; omega
  · rw [shapeCast_self]

/-! The product of a query row with a block of keys: the left index keeps the batch row and the query's unit row
    and runs over the features; the right index keeps the batch row, takes the key position from the result's last
    coordinate, and runs over the features. -/

theorem lhs_scores_0 (i : S16x1x512.Idx) (q : dot_S16x1x64_S16x512x64_S16x1x512_2_2_1_1_0_0.contr.Idx) :
    (dot_S16x1x64_S16x512x64_S16x1x512_2_2_1_1_0_0.lhsIdx i q 0).val = (i 0).val := by
  unfold DotDims.lhsIdx
  rw [dif_pos (show (0 : Fin S16x1x64.rank) ∈ dot_S16x1x64_S16x512x64_S16x1x512_2_2_1_1_0_0.lhsBatch by decide)]
  rfl
theorem lhs_scores_1 (i : S16x1x512.Idx) (q : dot_S16x1x64_S16x512x64_S16x1x512_2_2_1_1_0_0.contr.Idx) :
    (dot_S16x1x64_S16x512x64_S16x1x512_2_2_1_1_0_0.lhsIdx i q 1).val = (i 1).val := by
  unfold DotDims.lhsIdx
  rw [dif_neg (show ¬(1 : Fin S16x1x64.rank) ∈ dot_S16x1x64_S16x512x64_S16x1x512_2_2_1_1_0_0.lhsBatch by decide),
    dif_pos (show (1 : Fin S16x1x64.rank) ∈ dot_S16x1x64_S16x512x64_S16x1x512_2_2_1_1_0_0.lhsNonContracting by decide)]
  rfl
theorem lhs_scores_2 (i : S16x1x512.Idx) (q : dot_S16x1x64_S16x512x64_S16x1x512_2_2_1_1_0_0.contr.Idx) :
    (dot_S16x1x64_S16x512x64_S16x1x512_2_2_1_1_0_0.lhsIdx i q 2).val = (q ⟨0, by decide⟩).val :=
  dot_S16x1x64_S16x512x64_S16x1x512_2_2_1_1_0_0.lhsIdx_val_of_single rfl i q
theorem rhs_scores_0 (i : S16x1x512.Idx) (q : dot_S16x1x64_S16x512x64_S16x1x512_2_2_1_1_0_0.contr.Idx) :
    (dot_S16x1x64_S16x512x64_S16x1x512_2_2_1_1_0_0.rhsIdx i q 0).val = (i 0).val := by
  unfold DotDims.rhsIdx
  rw [dif_pos (show (0 : Fin S16x512x64.rank) ∈ dot_S16x1x64_S16x512x64_S16x1x512_2_2_1_1_0_0.rhsBatch by decide)]
  rfl
theorem rhs_scores_1 (i : S16x1x512.Idx) (q : dot_S16x1x64_S16x512x64_S16x1x512_2_2_1_1_0_0.contr.Idx) :
    (dot_S16x1x64_S16x512x64_S16x1x512_2_2_1_1_0_0.rhsIdx i q 1).val = (i 2).val := by
  unfold DotDims.rhsIdx
  rw [dif_neg (show ¬(1 : Fin S16x512x64.rank) ∈ dot_S16x1x64_S16x512x64_S16x1x512_2_2_1_1_0_0.rhsBatch by decide),
    dif_pos (show (1 : Fin S16x512x64.rank) ∈ dot_S16x1x64_S16x512x64_S16x1x512_2_2_1_1_0_0.rhsNonContracting by decide)]
  rfl
theorem rhs_scores_2 (i : S16x1x512.Idx) (q : dot_S16x1x64_S16x512x64_S16x1x512_2_2_1_1_0_0.contr.Idx) :
    (dot_S16x1x64_S16x512x64_S16x1x512_2_2_1_1_0_0.rhsIdx i q 2).val = (q ⟨0, by decide⟩).val :=
  dot_S16x1x64_S16x512x64_S16x1x512_2_2_1_1_0_0.rhsIdx_val_of_single rfl i q

/-- A query row against a block of 512 keys, into a zero accumulator: the plain sum over the 64 features. -/
theorem scores_apply (lhs : FVec Ideal S16x1x64 .bf16) (rhs : FVec Ideal S16x512x64 .bf16) (bb : Fin 16) (r : Fin 512) :
    matmul dot_S16x1x64_S16x512x64_S16x1x512_2_2_1_1_0_0 none lhs rhs (constant S16x1x512 .f32 0x00000000#32) (ix3 bb 0 r)
      = ∑ e : Fin 64, lhs (ix3 bb 0 e) * rhs (ix3 bb r e) := by
  refine (Ideal.matmul_constant_zero_apply dot_S16x1x64_S16x512x64_S16x1x512_2_2_1_1_0_0 none lhs rhs (ix3 bb 0 r)).trans ?_
  rw [← Equiv.sum_comp (contrEquiv1 dot_S16x1x64_S16x512x64_S16x1x512_2_2_1_1_0_0 64 rfl rfl).symm]
  refine Finset.sum_congr rfl fun k _ => ?_
  have hk := contrEquiv1_symm_val dot_S16x1x64_S16x512x64_S16x1x512_2_2_1_1_0_0 64 rfl rfl k
  have el : dot_S16x1x64_S16x512x64_S16x1x512_2_2_1_1_0_0.lhsIdx (ix3 bb 0 r)
      ((contrEquiv1 dot_S16x1x64_S16x512x64_S16x1x512_2_2_1_1_0_0 64 rfl rfl).symm k) = ix3 bb 0 k :=
    funext fun a => Fin.ext (by
      match a with
      | ⟨0, _⟩ => exact lhs_scores_0 _ _
      | ⟨1, _⟩ => exact lhs_scores_1 _ _
      | ⟨2, _⟩ => exact (lhs_scores_2 _ _).trans hk)
  have er : dot_S16x1x64_S16x512x64_S16x1x512_2_2_1_1_0_0.rhsIdx (ix3 bb 0 r)
      ((contrEquiv1 dot_S16x1x64_S16x512x64_S16x1x512_2_2_1_1_0_0 64 rfl rfl).symm k) = ix3 bb r k :=
    funext fun a => Fin.ext (by
      match a with
      | ⟨0, _⟩ => exact rhs_scores_0 _ _
      | ⟨1, _⟩ => exact rhs_scores_1 _ _
      | ⟨2, _⟩ => exact (rhs_scores_2 _ _).trans hk)
  rw [el, er]

/-- The scores of the even positions: the query against the even half of the key block. -/
theorem pay13_apply (q : Vec Ideal S16x1x64 .f32) (kb : Vec Ideal S16x512x128 .f32) (bb : Fin 16) (r : Fin 512) :
    k0_pay13 (F := Ideal) q kb (ix3 bb 0 r) = ∑ e : Fin 64, q (ix3 bb 0 e) * kb (ix3 bb r (lane 0 e)) := by
  unfold k0_pay13 k0_pay5 k0_pay6
  refine (scores_apply _ _ bb r).trans ?_
  refine Finset.sum_congr rfl fun e _ => ?_
  congr 1
  refine (extractStridedSlice_apply _ _ _ (ix3 bb r e) (ix3 bb r (lane 0 e)) (fun a => ?_)).trans ?_
  · match a with
    | ⟨0, _⟩ => show bb.val = 0 + bb.val; omega
    | ⟨1, _⟩ => show r.val = 0 + r.val; omega
    | ⟨2, _⟩ => show 64 * (0 : Fin 2).val + e.val = 0 + e.val; simp
  · simp only [truncf_apply, shapeCast_self]

/-- The scores of the odd positions. -/
theorem pay14_apply (q : Vec Ideal S16x1x64 .f32) (kb : Vec Ideal S16x512x128 .f32) (bb : Fin 16) (r : Fin 512) :
    k0_pay14 (F := Ideal) q kb (ix3 bb 0 r) = ∑ e : Fin 64, q (ix3 bb 0 e) * kb (ix3 bb r (lane 1 e)) := by
  unfold k0_pay14 k0_pay5 k0_pay6
  refine (scores_apply _ _ bb r).trans ?_
  refine Finset.sum_congr rfl fun e _ => ?_
  congr 1
  refine (extractStridedSlice_apply _ _ _ (ix3 bb r e) (ix3 bb r (lane 1 e)) (fun a => ?_)).trans ?_
  · match a with
    | ⟨0, _⟩ => show bb.val = 0 + bb.val; omega
    | ⟨1, _⟩ => show r.val = 0 + r.val; omega
    | ⟨2, _⟩ => show 64 * (1 : Fin 2).val + e.val = 64 + e.val; simp
  · simp only [truncf_apply, shapeCast_self]

/-- A fold of `max` from `-∞` over a finite set is the supremum over it. -/
private theorem fold_max_bot {ι : Type*} (s : Finset ι) (f : ι → EReal) : s.fold max ⊥ f = s.sup f := by
  classical
  induction s using Finset.induction_on with
  | empty => simp
  | insert a s ha ih => rw [Finset.fold_insert ha, Finset.sup_insert, ih]

/-- The source index over row `bb` of the reduced shape with `r` put back on the reduced axis. -/
theorem lift_row (bb : Fin 16) (r : Fin 512) :
    Shape.Reduces.lift reduces_S16x1x512_S16x1 (ix2 bb 0) r = ix3 bb 0 r := by
  funext c
  match c with
  | ⟨0, _⟩ => exact Fin.ext rfl
  | ⟨1, _⟩ => exact Fin.ext rfl
  | ⟨2, _⟩ => exact Fin.ext rfl

/-- The maximum over the 512 positions of a row, kept as a `[16, 1, 1]` value: the supremum of the row's entries. -/
theorem rowMax_apply (src : FVec Ideal S16x1x512 .f32) (hφ : FKind.Formats .f32)
    (hacc : (0xFF800000#32 : BitVec (FTy.bits .f32)) = FKind.maximumf.neutral .f32 hφ) (bb : Fin 16) :
    shapeCast S16x1x1 (multiReduction (F := Ideal) .maximumf [2] S16x1 src 0xFF800000#32 reduces_S16x1x512_S16x1 hφ hacc)
        shapeCasts_S16x1_S16x1x1 (ix3 bb 0 0)
      = Finset.univ.sup fun r : Fin 512 => src (ix3 bb 0 r) := by
  -- the cast adds a trailing unit axis: same row-major position
  refine (shapeCast_apply _ _ (ix3 bb 0 0) (ix2 bb 0) ?_).trans ?_
  · rw [Shape.rowMajor_val_two, Shape.rowMajor_val_three]
    show bb.val * 1 + 0 = (bb.val * 1 + 0) * 1 + 0
    omega
  refine (Ideal.multiReduction_maximumf_single src _ reduces_S16x1x512_S16x1 hφ hacc (ix2 bb 0)).trans ?_
  rw [Ideal.ofBits_def, ofBits_negInf_f32, fold_max_bot]
  exact congrArg Finset.univ.sup (funext fun r => congrArg src (lift_row bb r))

/-- The new running maximum: the old one against the largest score of either half. -/
theorem pay15_apply (q : Vec Ideal S16x1x64 .f32) (kb : Vec Ideal S16x512x128 .f32) (m0 : Vec Ideal S16x1x1 .f32) (bb : Fin 16) :
    k0_pay15 (F := Ideal) q kb m0 (ix3 bb 0 0)
      = max (m0 (ix3 bb 0 0))
          (max (Finset.univ.sup fun r : Fin 512 => k0_pay13 (F := Ideal) q kb (ix3 bb 0 r))
               (Finset.univ.sup fun r : Fin 512 => k0_pay14 (F := Ideal) q kb (ix3 bb 0 r))) := by
  unfold k0_pay15
  simp only [maximumf_apply]
  exact congrArg₂ max rfl (congrArg₂ max (rowMax_apply _ _ _ bb) (rowMax_apply _ _ _ bb))

/-- The old maximum less the new one. -/
theorem pay16_apply (q : Vec Ideal S16x1x64 .f32) (kb : Vec Ideal S16x512x128 .f32) (m0 m0' : Vec Ideal S16x1x1 .f32) (i : S16x1x1.Idx) :
    k0_pay16 (F := Ideal) q kb m0 m0' i = m0' i - k0_pay15 (F := Ideal) q kb m0 i := by
  unfold k0_pay16
  exact subf_apply _ _ _

/-- The stored maximum is the new maximum. -/
theorem pay22_eq (mnew : FVec Ideal S16x1x1 .f32) : k0_pay22 (F := Ideal) mnew = mnew := by
  unfold k0_pay22
  exact shapeCast_self _ _

end Cert.Attn.Pay

end
-- ==== Proof.PaySums.lean ====
/-
  The kernel body's sums read at an index, at the ideal instance: the rescaled running sum, the rescaled
  accumulator, and the final quotient of the push step.

  With the new maximum `mnew` and the difference `mdiff` (old maximum less new) of a row, a tile's two halves
  contribute, for every pair `r`, the weights `e^(s r + w r - mnew)` of its even and of its odd position
  (`s` the scores, `w` the mask entries). The running sum becomes `e^mdiff` times the old sum plus both halves'
  weights; the accumulator at feature `d` likewise, each weight times that position's value (a product of the
  weight row with the value block into a zero accumulator: the plain sum over the 512 pairs). At the last tile
  the pushed key's weight `e^(⟨qp, kp⟩ - m)` joins both, scaled by the decay, and the result is their quotient.
-/
import proofs.«419862_j18794776888018_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Pay

open Idealize.ShloMosaic Idealize.ShloMosaic.ValueIdx Cert.KernelIdeal Cert.KernelIdeal.Gen

/-- The rescaling factor is the exponential of the difference of the maxima. -/
theorem pay17_apply (x : FVec Ideal S16x1x1 .f32) (i : S16x1x1.Idx) : k0_pay17 (F := Ideal) x i = Ideal.exp (x i) := by
  unfold k0_pay17
  rfl

/-- A row's sum over its 512 lanes, kept as a unit axis, read at the row: the plain sum over the lanes. -/
theorem laneSum_apply (v : FVec Ideal S16x1x512 .f32) (hφ : FKind.Formats .f32)
    (hacc : (0x00000000#32 : BitVec 32) = FKind.add.neutral .f32 hφ) (bb : Fin 16) :
    shapeCast S16x1x1 (multiReduction (F := Ideal) .add [2] S16x1 v 0x00000000#32 reduces_S16x1x512_S16x1 hφ hacc)
        shapeCasts_S16x1_S16x1x1 (ix3 bb 0 0)
      = ∑ r : Fin 512, v (ix3 bb 0 r) := by
  refine (shapeCast_apply _ shapeCasts_S16x1_S16x1x1 (ix3 bb 0 0) (ix2 bb 0) ?_).trans ?_
  · rw [Shape.rowMajor_val_two, Shape.rowMajor_val_three]
    show bb.val * 1 + 0 = (bb.val * 1 + 0) * 1 + 0
    omega
  · refine (Ideal.multiReduction_add_single v _ reduces_S16x1x512_S16x1 hφ hacc (ix2 bb 0)).trans ?_
    refine Finset.sum_congr rfl fun r _ => congrArg v ?_
    funext a
    match a with
    | ⟨0, _⟩ => rfl
    | ⟨1, _⟩ => rfl
    | ⟨2, _⟩ => rfl

/-- A row's one entry, spread over the 512 lanes, reads that entry at every lane. -/
theorem bcast512_apply (m : FVec Ideal S16x1x1 .f32) (bb : Fin 16) (r : Fin 512) :
    broadcastTo S16x1x512 m broadcasts_S16x1x1_S16x1x512 (ix3 bb 0 r) = m (ix3 bb 0 0) :=
  broadcastTo_apply m broadcasts_S16x1x1_S16x1x512 (ix3 bb 0 r) (ix3 bb 0 0) fun a => match a with
    | ⟨0, _⟩ => by show bb.val = if (16 : Nat) = 1 then 0 else bb.val; rw [if_neg (by decide)]
    | ⟨1, _⟩ => by show 0 = if (1 : Nat) = 1 then 0 else (0 : Fin 1).val; rw [if_pos rfl]
    | ⟨2, _⟩ => by show 0 = if (1 : Nat) = 1 then 0 else r.val; rw [if_pos rfl]

/-- The same over the 64 features. -/
theorem bcast64_apply (m : FVec Ideal S16x1x1 .f32) (bb : Fin 16) (d : Fin 64) :
    broadcastTo S16x1x64 m broadcasts_S16x1x1_S16x1x64 (ix3 bb 0 d) = m (ix3 bb 0 0) :=
  broadcastTo_apply m broadcasts_S16x1x1_S16x1x64 (ix3 bb 0 d) (ix3 bb 0 0) fun a => match a with
    | ⟨0, _⟩ => by show bb.val = if (16 : Nat) = 1 then 0 else bb.val; rw [if_neg (by decide)]
    | ⟨1, _⟩ => by show 0 = if (1 : Nat) = 1 then 0 else (0 : Fin 1).val; rw [if_pos rfl]
    | ⟨2, _⟩ => by show 0 = if (1 : Nat) = 1 then 0 else d.val; rw [if_pos rfl]

/-- The weight of an even position: the exponential of score plus mask entry less the new maximum. -/
theorem pay18_apply (w s : FVec Ideal S16x1x512 .f32) (mnew : FVec Ideal S16x1x1 .f32) (bb : Fin 16) (r : Fin 512) :
    k0_pay18 (F := Ideal) w s mnew (ix3 bb 0 r)
      = Ideal.exp (s (ix3 bb 0 r) + w (ix3 bb 0 r) - mnew (ix3 bb 0 0)) := by
  unfold k0_pay18
  show Ideal.exp (s (ix3 bb 0 r) + w (ix3 bb 0 r)
    - broadcastTo S16x1x512 mnew broadcasts_S16x1x1_S16x1x512 (ix3 bb 0 r)) = _
  rw [bcast512_apply]

/-- The weight of an odd position, likewise. -/
theorem pay19_apply (w s : FVec Ideal S16x1x512 .f32) (mnew : FVec Ideal S16x1x1 .f32) (bb : Fin 16) (r : Fin 512) :
    k0_pay19 (F := Ideal) w s mnew (ix3 bb 0 r)
      = Ideal.exp (s (ix3 bb 0 r) + w (ix3 bb 0 r) - mnew (ix3 bb 0 0)) := by
  unfold k0_pay19
  show Ideal.exp (s (ix3 bb 0 r) + w (ix3 bb 0 r)
    - broadcastTo S16x1x512 mnew broadcasts_S16x1x1_S16x1x512 (ix3 bb 0 r)) = _
  rw [bcast512_apply]

/-- The new running sum of a row. -/
theorem pay20_apply (w0 w1 s0 s1 : FVec Ideal S16x1x512 .f32) (mnew mdiff : FVec Ideal S16x1x1 .f32)
    (l0 : Vec Ideal S16x1x1 .f32) (bb : Fin 16) :
    k0_pay20 (F := Ideal) w0 w1 s0 s1 mnew mdiff l0 (ix3 bb 0 0)
      = Ideal.exp (mdiff (ix3 bb 0 0)) * l0 (ix3 bb 0 0)
          + (∑ r : Fin 512, Ideal.exp (s0 (ix3 bb 0 r) + w0 (ix3 bb 0 r) - mnew (ix3 bb 0 0)))
          + ∑ r : Fin 512, Ideal.exp (s1 (ix3 bb 0 r) + w1 (ix3 bb 0 r) - mnew (ix3 bb 0 0)) := by
  unfold k0_pay20
  simp only [shapeCast_self, addf_apply, mulf_apply, pay17_apply]
  congr 1
  · congr 1
    exact (laneSum_apply _ _ _ bb).trans (Finset.sum_congr rfl fun r _ => pay18_apply w0 s0 mnew bb r)
  · exact (laneSum_apply _ _ _ bb).trans (Finset.sum_congr rfl fun r _ => pay19_apply w1 s1 mnew bb r)

/-! The product of a weight row with a value block: the operand indices of the contraction, axis by axis. -/
theorem lhs_pv_0 (i : S16x1x64.Idx) (q : dot_S16x1x512_S16x512x64_S16x1x64_2_1_1_2_0_0.contr.Idx) :
    (dot_S16x1x512_S16x512x64_S16x1x64_2_1_1_2_0_0.lhsIdx i q 0).val = (i 0).val := by
  unfold DotDims.lhsIdx
  rw [dif_pos (show (0 : Fin S16x1x512.rank) ∈ dot_S16x1x512_S16x512x64_S16x1x64_2_1_1_2_0_0.lhsBatch by decide)]
  rfl
theorem lhs_pv_1 (i : S16x1x64.Idx) (q : dot_S16x1x512_S16x512x64_S16x1x64_2_1_1_2_0_0.contr.Idx) :
    (dot_S16x1x512_S16x512x64_S16x1x64_2_1_1_2_0_0.lhsIdx i q 1).val = (i 1).val := by
  unfold DotDims.lhsIdx
  rw [dif_neg (show ¬(1 : Fin S16x1x512.rank) ∈ dot_S16x1x512_S16x512x64_S16x1x64_2_1_1_2_0_0.lhsBatch by decide),
    dif_pos (show (1 : Fin S16x1x512.rank) ∈ dot_S16x1x512_S16x512x64_S16x1x64_2_1_1_2_0_0.lhsNonContracting by decide)]
  rfl
theorem lhs_pv_2 (i : S16x1x64.Idx) (q : dot_S16x1x512_S16x512x64_S16x1x64_2_1_1_2_0_0.contr.Idx) :
    (dot_S16x1x512_S16x512x64_S16x1x64_2_1_1_2_0_0.lhsIdx i q 2).val = (q ⟨0, by decide⟩).val :=
  dot_S16x1x512_S16x512x64_S16x1x64_2_1_1_2_0_0.lhsIdx_val_of_single rfl i q
theorem rhs_pv_0 (i : S16x1x64.Idx) (q : dot_S16x1x512_S16x512x64_S16x1x64_2_1_1_2_0_0.contr.Idx) :
    (dot_S16x1x512_S16x512x64_S16x1x64_2_1_1_2_0_0.rhsIdx i q 0).val = (i 0).val := by
  unfold DotDims.rhsIdx
  rw [dif_pos (show (0 : Fin S16x512x64.rank) ∈ dot_S16x1x512_S16x512x64_S16x1x64_2_1_1_2_0_0.rhsBatch by decide)]
  rfl
theorem rhs_pv_2 (i : S16x1x64.Idx) (q : dot_S16x1x512_S16x512x64_S16x1x64_2_1_1_2_0_0.contr.Idx) :
    (dot_S16x1x512_S16x512x64_S16x1x64_2_1_1_2_0_0.rhsIdx i q 2).val = (i 2).val := by
  unfold DotDims.rhsIdx
  rw [dif_neg (show ¬(2 : Fin S16x512x64.rank) ∈ dot_S16x1x512_S16x512x64_S16x1x64_2_1_1_2_0_0.rhsBatch by decide),
    dif_pos (show (2 : Fin S16x512x64.rank) ∈ dot_S16x1x512_S16x512x64_S16x1x64_2_1_1_2_0_0.rhsNonContracting by decide)]
  rfl
theorem rhs_pv_1 (i : S16x1x64.Idx) (q : dot_S16x1x512_S16x512x64_S16x1x64_2_1_1_2_0_0.contr.Idx) :
    (dot_S16x1x512_S16x512x64_S16x1x64_2_1_1_2_0_0.rhsIdx i q 1).val = (q ⟨0, by decide⟩).val :=
  dot_S16x1x512_S16x512x64_S16x1x64_2_1_1_2_0_0.rhsIdx_val_of_single rfl i q

/-- A weight row times a value block into a zero accumulator, at feature `d`: the plain sum over the 512 pairs. -/
theorem matmulPV_apply (p : FVec Ideal S16x1x512 .bf16) (v : FVec Ideal S16x512x64 .bf16) (bb : Fin 16) (d : Fin 64) :
    matmul (F := Ideal) dot_S16x1x512_S16x512x64_S16x1x64_2_1_1_2_0_0 none p v (constant S16x1x64 .f32 0x00000000#32) (ix3 bb 0 d)
      = ∑ r : Fin 512, p (ix3 bb 0 r) * v (ix3 bb r d) := by
  simp only [matmul]
  rw [Ideal.matmul_constant_zero_apply, ← Equiv.sum_comp (contrEquiv1 dot_S16x1x512_S16x512x64_S16x1x64_2_1_1_2_0_0 512 rfl rfl).symm]
  refine Finset.sum_congr rfl fun k _ => ?_
  have hk := contrEquiv1_symm_val dot_S16x1x512_S16x512x64_S16x1x64_2_1_1_2_0_0 512 rfl rfl k
  have el : dot_S16x1x512_S16x512x64_S16x1x64_2_1_1_2_0_0.lhsIdx (ix3 bb 0 d) ((contrEquiv1 dot_S16x1x512_S16x512x64_S16x1x64_2_1_1_2_0_0 512 rfl rfl).symm k) = ix3 bb 0 k :=
    funext fun a => Fin.ext (by
      match a with
      | ⟨0, _⟩ => exact lhs_pv_0 _ _
      | ⟨1, _⟩ => exact lhs_pv_1 _ _
      | ⟨2, _⟩ => exact (lhs_pv_2 _ _).trans hk)
  have er : dot_S16x1x512_S16x512x64_S16x1x64_2_1_1_2_0_0.rhsIdx (ix3 bb 0 d) ((contrEquiv1 dot_S16x1x512_S16x512x64_S16x1x64_2_1_1_2_0_0 512 rfl rfl).symm k) = ix3 bb k d :=
    funext fun a => Fin.ext (by
      match a with
      | ⟨0, _⟩ => exact rhs_pv_0 _ _
      | ⟨1, _⟩ => exact (rhs_pv_1 _ _).trans hk
      | ⟨2, _⟩ => exact rhs_pv_2 _ _)
  rw [el, er]

/-- The new accumulator of a row at feature `d`. -/
theorem pay21_apply (v0 v1 : FVec Ideal S16x512x64 .bf16) (w0 w1 s0 s1 : FVec Ideal S16x1x512 .f32)
    (mnew mdiff : FVec Ideal S16x1x1 .f32) (a0 : Vec Ideal S16x1x64 .f32) (bb : Fin 16) (d : Fin 64) :
    k0_pay21 (F := Ideal) v0 v1 w0 w1 s0 s1 mnew mdiff a0 (ix3 bb 0 d)
      = Ideal.exp (mdiff (ix3 bb 0 0)) * a0 (ix3 bb 0 d)
          + (∑ r : Fin 512, Ideal.exp (s0 (ix3 bb 0 r) + w0 (ix3 bb 0 r) - mnew (ix3 bb 0 0)) * v0 (ix3 bb r d))
          + ∑ r : Fin 512, Ideal.exp (s1 (ix3 bb 0 r) + w1 (ix3 bb 0 r) - mnew (ix3 bb 0 0)) * v1 (ix3 bb r d) := by
  unfold k0_pay21
  simp only [shapeCast_self, addf_apply, mulf_apply, bcast64_apply, pay17_apply]
  congr 1
  · congr 1
    exact (matmulPV_apply _ v0 bb d).trans
      (Finset.sum_congr rfl fun r _ => by rw [truncf_apply, pay18_apply])
  · exact (matmulPV_apply _ v1 bb d).trans
      (Finset.sum_congr rfl fun r _ => by rw [truncf_apply, pay19_apply])

/-! The product of the pushed query with the pushed key: the operand indices of the contraction, axis by axis. -/
theorem lhs_qk_0 (i : S16x1x1.Idx) (q : dot_S16x1x64_S16x1x64_S16x1x1_2_2_1_1_0_0.contr.Idx) :
    (dot_S16x1x64_S16x1x64_S16x1x1_2_2_1_1_0_0.lhsIdx i q 0).val = (i 0).val := by
  unfold DotDims.lhsIdx
  rw [dif_pos (show (0 : Fin S16x1x64.rank) ∈ dot_S16x1x64_S16x1x64_S16x1x1_2_2_1_1_0_0.lhsBatch by decide)]
  rfl
theorem lhs_qk_1 (i : S16x1x1.Idx) (q : dot_S16x1x64_S16x1x64_S16x1x1_2_2_1_1_0_0.contr.Idx) :
    (dot_S16x1x64_S16x1x64_S16x1x1_2_2_1_1_0_0.lhsIdx i q 1).val = (i 1).val := by
  unfold DotDims.lhsIdx
  rw [dif_neg (show ¬(1 : Fin S16x1x64.rank) ∈ dot_S16x1x64_S16x1x64_S16x1x1_2_2_1_1_0_0.lhsBatch by decide),
    dif_pos (show (1 : Fin S16x1x64.rank) ∈ dot_S16x1x64_S16x1x64_S16x1x1_2_2_1_1_0_0.lhsNonContracting by decide)]
  rfl
theorem lhs_qk_2 (i : S16x1x1.Idx) (q : dot_S16x1x64_S16x1x64_S16x1x1_2_2_1_1_0_0.contr.Idx) :
    (dot_S16x1x64_S16x1x64_S16x1x1_2_2_1_1_0_0.lhsIdx i q 2).val = (q ⟨0, by decide⟩).val :=
  dot_S16x1x64_S16x1x64_S16x1x1_2_2_1_1_0_0.lhsIdx_val_of_single rfl i q
theorem rhs_qk_0 (i : S16x1x1.Idx) (q : dot_S16x1x64_S16x1x64_S16x1x1_2_2_1_1_0_0.contr.Idx) :
    (dot_S16x1x64_S16x1x64_S16x1x1_2_2_1_1_0_0.rhsIdx i q 0).val = (i 0).val := by
  unfold DotDims.rhsIdx
  rw [dif_pos (show (0 : Fin S16x1x64.rank) ∈ dot_S16x1x64_S16x1x64_S16x1x1_2_2_1_1_0_0.rhsBatch by decide)]
  rfl
theorem rhs_qk_1 (i : S16x1x1.Idx) (q : dot_S16x1x64_S16x1x64_S16x1x1_2_2_1_1_0_0.contr.Idx) :
    (dot_S16x1x64_S16x1x64_S16x1x1_2_2_1_1_0_0.rhsIdx i q 1).val = (i 2).val := by
  unfold DotDims.rhsIdx
  rw [dif_neg (show ¬(1 : Fin S16x1x64.rank) ∈ dot_S16x1x64_S16x1x64_S16x1x1_2_2_1_1_0_0.rhsBatch by decide),
    dif_pos (show (1 : Fin S16x1x64.rank) ∈ dot_S16x1x64_S16x1x64_S16x1x1_2_2_1_1_0_0.rhsNonContracting by decide)]
  rfl
theorem rhs_qk_2 (i : S16x1x1.Idx) (q : dot_S16x1x64_S16x1x64_S16x1x1_2_2_1_1_0_0.contr.Idx) :
    (dot_S16x1x64_S16x1x64_S16x1x1_2_2_1_1_0_0.rhsIdx i q 2).val = (q ⟨0, by decide⟩).val :=
  dot_S16x1x64_S16x1x64_S16x1x1_2_2_1_1_0_0.rhsIdx_val_of_single rfl i q

/-- The pushed query against the pushed key, into a zero accumulator: their inner product over the 64 features. -/
theorem matmulQK_apply (q k : FVec Ideal S16x1x64 .bf16) (bb : Fin 16) :
    matmul (F := Ideal) dot_S16x1x64_S16x1x64_S16x1x1_2_2_1_1_0_0 none q k (constant S16x1x1 .f32 0x00000000#32) (ix3 bb 0 0)
      = ∑ e : Fin 64, q (ix3 bb 0 e) * k (ix3 bb 0 e) := by
  simp only [matmul]
  rw [Ideal.matmul_constant_zero_apply, ← Equiv.sum_comp (contrEquiv1 dot_S16x1x64_S16x1x64_S16x1x1_2_2_1_1_0_0 64 rfl rfl).symm]
  refine Finset.sum_congr rfl fun e _ => ?_
  have hk := contrEquiv1_symm_val dot_S16x1x64_S16x1x64_S16x1x1_2_2_1_1_0_0 64 rfl rfl e
  have el : dot_S16x1x64_S16x1x64_S16x1x1_2_2_1_1_0_0.lhsIdx (ix3 bb 0 0) ((contrEquiv1 dot_S16x1x64_S16x1x64_S16x1x1_2_2_1_1_0_0 64 rfl rfl).symm e) = ix3 bb 0 e :=
    funext fun a => Fin.ext (by
      match a with
      | ⟨0, _⟩ => exact lhs_qk_0 _ _
      | ⟨1, _⟩ => exact lhs_qk_1 _ _
      | ⟨2, _⟩ => exact (lhs_qk_2 _ _).trans hk)
  have er : dot_S16x1x64_S16x1x64_S16x1x1_2_2_1_1_0_0.rhsIdx (ix3 bb 0 0) ((contrEquiv1 dot_S16x1x64_S16x1x64_S16x1x1_2_2_1_1_0_0 64 rfl rfl).symm e) = ix3 bb 0 e :=
    funext fun a => Fin.ext (by
      match a with
      | ⟨0, _⟩ => exact rhs_qk_0 _ _
      | ⟨1, _⟩ => exact rhs_qk_1 _ _
      | ⟨2, _⟩ => exact (rhs_qk_2 _ _).trans hk)
  rw [el, er]

/-! The product of the pushed weight with the pushed value: the operand indices of the contraction, axis by axis. -/
theorem lhs_ev_0 (i : S16x1x64.Idx) (q : dot_S16x1x1_S16x1x64_S16x1x64_2_1_1_2_0_0.contr.Idx) :
    (dot_S16x1x1_S16x1x64_S16x1x64_2_1_1_2_0_0.lhsIdx i q 0).val = (i 0).val := by
  unfold DotDims.lhsIdx
  rw [dif_pos (show (0 : Fin S16x1x1.rank) ∈ dot_S16x1x1_S16x1x64_S16x1x64_2_1_1_2_0_0.lhsBatch by decide)]
  rfl
theorem lhs_ev_1 (i : S16x1x64.Idx) (q : dot_S16x1x1_S16x1x64_S16x1x64_2_1_1_2_0_0.contr.Idx) :
    (dot_S16x1x1_S16x1x64_S16x1x64_2_1_1_2_0_0.lhsIdx i q 1).val = (i 1).val := by
  unfold DotDims.lhsIdx
  rw [dif_neg (show ¬(1 : Fin S16x1x1.rank) ∈ dot_S16x1x1_S16x1x64_S16x1x64_2_1_1_2_0_0.lhsBatch by decide),
    dif_pos (show (1 : Fin S16x1x1.rank) ∈ dot_S16x1x1_S16x1x64_S16x1x64_2_1_1_2_0_0.lhsNonContracting by decide)]
  rfl
theorem lhs_ev_2 (i : S16x1x64.Idx) (q : dot_S16x1x1_S16x1x64_S16x1x64_2_1_1_2_0_0.contr.Idx) :
    (dot_S16x1x1_S16x1x64_S16x1x64_2_1_1_2_0_0.lhsIdx i q 2).val = (q ⟨0, by decide⟩).val :=
  dot_S16x1x1_S16x1x64_S16x1x64_2_1_1_2_0_0.lhsIdx_val_of_single rfl i q
theorem rhs_ev_0 (i : S16x1x64.Idx) (q : dot_S16x1x1_S16x1x64_S16x1x64_2_1_1_2_0_0.contr.Idx) :
    (dot_S16x1x1_S16x1x64_S16x1x64_2_1_1_2_0_0.rhsIdx i q 0).val = (i 0).val := by
  unfold DotDims.rhsIdx
  rw [dif_pos (show (0 : Fin S16x1x64.rank) ∈ dot_S16x1x1_S16x1x64_S16x1x64_2_1_1_2_0_0.rhsBatch by decide)]
  rfl
theorem rhs_ev_2 (i : S16x1x64.Idx) (q : dot_S16x1x1_S16x1x64_S16x1x64_2_1_1_2_0_0.contr.Idx) :
    (dot_S16x1x1_S16x1x64_S16x1x64_2_1_1_2_0_0.rhsIdx i q 2).val = (i 2).val := by
  unfold DotDims.rhsIdx
  rw [dif_neg (show ¬(2 : Fin S16x1x64.rank) ∈ dot_S16x1x1_S16x1x64_S16x1x64_2_1_1_2_0_0.rhsBatch by decide),
    dif_pos (show (2 : Fin S16x1x64.rank) ∈ dot_S16x1x1_S16x1x64_S16x1x64_2_1_1_2_0_0.rhsNonContracting by decide)]
  rfl
theorem rhs_ev_1 (i : S16x1x64.Idx) (q : dot_S16x1x1_S16x1x64_S16x1x64_2_1_1_2_0_0.contr.Idx) :
    (dot_S16x1x1_S16x1x64_S16x1x64_2_1_1_2_0_0.rhsIdx i q 1).val = (q ⟨0, by decide⟩).val :=
  dot_S16x1x1_S16x1x64_S16x1x64_2_1_1_2_0_0.rhsIdx_val_of_single rfl i q

/-- The pushed weight (one entry a row) times the pushed value row into a zero accumulator, at feature `d`:
    their product, the contraction having one term. -/
theorem matmulEV_apply (p : FVec Ideal S16x1x1 .bf16) (v : FVec Ideal S16x1x64 .bf16) (bb : Fin 16) (d : Fin 64) :
    matmul (F := Ideal) dot_S16x1x1_S16x1x64_S16x1x64_2_1_1_2_0_0 none p v (constant S16x1x64 .f32 0x00000000#32) (ix3 bb 0 d)
      = p (ix3 bb 0 0) * v (ix3 bb 0 d) := by
  simp only [matmul]
  rw [Ideal.matmul_constant_zero_apply, ← Equiv.sum_comp (contrEquiv1 dot_S16x1x1_S16x1x64_S16x1x64_2_1_1_2_0_0 1 rfl rfl).symm, Fin.sum_univ_one]
  have hk := contrEquiv1_symm_val dot_S16x1x1_S16x1x64_S16x1x64_2_1_1_2_0_0 1 rfl rfl 0
  have el : dot_S16x1x1_S16x1x64_S16x1x64_2_1_1_2_0_0.lhsIdx (ix3 bb 0 d) ((contrEquiv1 dot_S16x1x1_S16x1x64_S16x1x64_2_1_1_2_0_0 1 rfl rfl).symm 0) = ix3 bb 0 0 :=
    funext fun a => Fin.ext (by
      match a with
      | ⟨0, _⟩ => exact lhs_ev_0 _ _
      | ⟨1, _⟩ => exact lhs_ev_1 _ _
      | ⟨2, _⟩ => exact (lhs_ev_2 _ _).trans hk)
  have er : dot_S16x1x1_S16x1x64_S16x1x64_2_1_1_2_0_0.rhsIdx (ix3 bb 0 d) ((contrEquiv1 dot_S16x1x1_S16x1x64_S16x1x64_2_1_1_2_0_0 1 rfl rfl).symm 0) = ix3 bb 0 d :=
    funext fun a => Fin.ext (by
      match a with
      | ⟨0, _⟩ => exact rhs_ev_0 _ _
      | ⟨1, _⟩ => exact (rhs_ev_1 _ _).trans hk
      | ⟨2, _⟩ => exact rhs_ev_2 _ _)
  rw [el, er]

/-- A row's sum over a single lane, kept as a unit axis, is that lane's entry. -/
theorem laneSum1_apply (v : FVec Ideal S16x1x1 .f32) (hφ : FKind.Formats .f32)
    (hacc : (0x00000000#32 : BitVec 32) = FKind.add.neutral .f32 hφ) (bb : Fin 16) :
    shapeCast S16x1x1 (multiReduction (F := Ideal) .add [2] S16x1 v 0x00000000#32 reduces_S16x1x1_S16x1 hφ hacc)
        shapeCasts_S16x1_S16x1x1 (ix3 bb 0 0)
      = v (ix3 bb 0 0) := by
  refine (shapeCast_apply _ shapeCasts_S16x1_S16x1x1 (ix3 bb 0 0) (ix2 bb 0) ?_).trans ?_
  · rw [Shape.rowMajor_val_two, Shape.rowMajor_val_three]
    show bb.val * 1 + 0 = (bb.val * 1 + 0) * 1 + 0
    omega
  · refine (Ideal.multiReduction_add_single v _ reduces_S16x1x1_S16x1 hφ hacc (ix2 bb 0)).trans ?_
    show ∑ k : Fin 1, v (reduces_S16x1x1_S16x1.lift (ix2 bb 0) k) = _
    rw [Fin.sum_univ_one]
    refine congrArg v ?_
    funext a
    match a with
    | ⟨0, _⟩ => rfl
    | ⟨1, _⟩ => rfl
    | ⟨2, _⟩ => rfl

/-- The pushed key's weight: the exponential of the inner product of pushed query and key less the final maximum. -/
theorem pushWeight_apply (qp kp : Vec Ideal S16x1x64 .f32) (mfin : Vec Ideal S16x1x1 .f32) (h : FTy.bits .bf16 < FTy.bits .f32) (bb : Fin 16) :
    exp (subf (matmul (F := Ideal) dot_S16x1x64_S16x1x64_S16x1x1_2_2_1_1_0_0 none (truncf .bf16 qp h) (truncf .bf16 kp h)
        (constant S16x1x1 .f32 0x00000000#32)) mfin) (ix3 bb 0 0)
      = Ideal.exp ((∑ e : Fin 64, qp (ix3 bb 0 e) * kp (ix3 bb 0 e)) - mfin (ix3 bb 0 0)) := by
  show Ideal.exp (matmul (F := Ideal) dot_S16x1x64_S16x1x64_S16x1x1_2_2_1_1_0_0 none (truncf .bf16 qp h) (truncf .bf16 kp h)
        (constant S16x1x1 .f32 0x00000000#32) (ix3 bb 0 0) - mfin (ix3 bb 0 0)) = _
  rw [matmulQK_apply]
  rfl

/-- The result of the push step at a row's feature `d`, from the pushed query, key and value blocks and the
    final maximum, accumulator and sum. -/
theorem pay1_apply (qp kp vp : Vec Ideal S16x1x64 .f32) (mfin : Vec Ideal S16x1x1 .f32) (afin : Vec Ideal S16x1x64 .f32)
    (lfin : Vec Ideal S16x1x1 .f32) (bb : Fin 16) (d : Fin 64) :
    k0_pay1 (F := Ideal) qp kp vp mfin afin lfin (ix3 bb 0 d)
      = Ideal.div
          (Ideal.ofBits .f32 0x3F7FBE77#32 * afin (ix3 bb 0 d)
            + Ideal.exp ((∑ e : Fin 64, qp (ix3 bb 0 e) * kp (ix3 bb 0 e)) - mfin (ix3 bb 0 0)) * vp (ix3 bb 0 d))
          (Ideal.ofBits .f32 0x3F7FBE77#32 * lfin (ix3 bb 0 0)
            + Ideal.exp ((∑ e : Fin 64, qp (ix3 bb 0 e) * kp (ix3 bb 0 e)) - mfin (ix3 bb 0 0))) := by
  unfold k0_pay1
  simp only [divf_apply, addf_apply, mulf_apply, broadcast_apply, bcast64_apply, Ideal.ofBits_def]
  congr 1
  · congr 1
    refine (matmulEV_apply _ _ bb d).trans ?_
    rw [truncf_apply, truncf_apply, pushWeight_apply]
  · congr 1
    exact (laneSum1_apply _ _ _ bb).trans (pushWeight_apply qp kp mfin _ bb)

end Cert.Attn.Pay

end
-- ==== Proof.LibOnlineSoftmax.lean ====
/-
  The online softmax over a finite set of positions, on the extended reals.

  Positions `p` carry a score `x p`, an additive mask `w p` and a value `v p`, all real numbers (as extended
  reals). For a finite set `S` of positions the state of a streaming softmax is the triple
    M = max over S of x,   L = ∑ p ∈ S, e^(x p + w p - M),   A = ∑ p ∈ S, e^(x p + w p - M) · v p,
  with `M = ⊥` and `L = A = 0` on the empty set. Taking in a further nonempty set `T` of positions, disjoint
  from `S`, the new maximum is `M' = max M (max over T of x)` and the old sums are rescaled by `e^(M - M')`:
    L' = e^(M - M') · L + ∑ p ∈ T, e^(x p + w p - M'),
  and likewise for `A`. The rescaling is exact: `e^(M - M') · e^(x + w - M) = e^(x + w - M')` for real
  numbers, and on the empty set `e^(⊥ - M') · 0 = 0`. So the triple after `S ∪ T` is again the state of
  `S ∪ T`, whatever the order and grouping in which positions arrive.
-/
import Idealize.ShloMosaic.PureOps.Ideal

noncomputable section

open scoped BigOperators

namespace Cert.Lib.OnlineSoftmax

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact IsReal.add (hf a (Finset.mem_insert_self a s)) (ih (fun i hi => hf i (Finset.mem_insert_of_mem hi)))

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `⊥` is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

variable {P : Type*} [DecidableEq P]

/-- The maximum of real scores over a nonempty set is a real number. -/
theorem sup_isReal (x : P → EReal) (hx : ∀ p, IsReal (x p)) (S : Finset P) (hS : S.Nonempty) : IsReal (S.sup x) := by
  obtain ⟨p, _, hp⟩ := Finset.exists_mem_eq_sup S hS x
  rw [hp]
  exact hx p

/-- The weight of position `p` against the maximum `M`. -/
def wt (x w : P → EReal) (M : EReal) (p : P) : EReal := Ideal.exp (x p + w p - M)

/-- The maximum after taking in `T`. -/
theorem step_max (x : P → EReal) (S T : Finset P) : max (S.sup x) (T.sup x) = (S ∪ T).sup x := by
  exact Finset.sup_union.symm

/-- The weighted sum after taking in `T`: the old sum rescaled plus the new positions' terms. -/
theorem step_acc (x w v : P → EReal) (hx : ∀ p, IsReal (x p)) (hw : ∀ p, IsReal (w p)) (hv : ∀ p, IsReal (v p))
    (S T : Finset P) (hST : Disjoint S T) (hT : T.Nonempty) :
    Ideal.exp (S.sup x - (S ∪ T).sup x) * (∑ p ∈ S, wt x w (S.sup x) p * v p)
        + ∑ p ∈ T, wt x w ((S ∪ T).sup x) p * v p
      = ∑ p ∈ S ∪ T, wt x w ((S ∪ T).sup x) p * v p := by
  classical
  -- real witnesses for the scores, the masks and the values
  choose xr hxr using hx
  choose wr hwr using hw
  choose vr hvr using hv
  obtain rfl : x = fun p => (xr p : EReal) := funext hxr
  obtain rfl : w = fun p => (wr p : EReal) := funext hwr
  obtain rfl : v = fun p => (vr p : EReal) := funext hvr
  rcases S.eq_empty_or_nonempty with rfl | hS
  · -- nothing seen so far: the old sum is empty, and `e^(⊥ - M') · 0 = 0`
    simp
  · -- both maxima are real numbers, and the identity is one of real numbers
    obtain ⟨M, hM⟩ := sup_isReal (fun p => (xr p : EReal)) (fun p => ⟨xr p, rfl⟩) S hS
    obtain ⟨M', hM'⟩ := sup_isReal (fun p => (xr p : EReal)) (fun p => ⟨xr p, rfl⟩) (S ∪ T)
      (hS.mono Finset.subset_union_left)
    simp only [wt, hM, hM', ← EReal.coe_add, ← EReal.coe_sub, Ideal.exp_coe, ← EReal.coe_mul,
      ← coe_finset_sum]
    congr 1
    rw [Finset.sum_union hST, Finset.mul_sum]
    congr 1
    refine Finset.sum_congr rfl (fun p _ => ?_)
    -- `e^(M - M') · e^(x + w - M) = e^(x + w - M')`
    rw [← mul_assoc, ← Real.exp_add]
    congr 2
    ring

/-- The sum of weights after taking in `T`. -/
theorem step_sum (x w : P → EReal) (hx : ∀ p, IsReal (x p)) (hw : ∀ p, IsReal (w p))
    (S T : Finset P) (hST : Disjoint S T) (hT : T.Nonempty) :
    Ideal.exp (S.sup x - (S ∪ T).sup x) * (∑ p ∈ S, wt x w (S.sup x) p)
        + ∑ p ∈ T, wt x w ((S ∪ T).sup x) p
      = ∑ p ∈ S ∪ T, wt x w ((S ∪ T).sup x) p := by
  -- the weighted sum with every value equal to one
  have h := step_acc x w (fun _ => (1 : EReal)) hx hw (fun _ => ⟨1, EReal.coe_one.symm⟩) S T hST hT
  simp only [mul_one] at h
  exact h

/-- Against a real maximum the mask may be added before or after the maximum is taken off. -/
theorem wt_comm (x w : P → EReal) (M : EReal) (p : P) (hx : IsReal (x p)) (hw : IsReal (w p)) (hM : IsReal M) :
    wt x w M p = Ideal.exp (x p - M + w p) := by
  obtain ⟨a, ha⟩ := hx
  obtain ⟨b, hb⟩ := hw
  obtain ⟨m, rfl⟩ := hM
  rw [wt, ha, hb, ← EReal.coe_add, ← EReal.coe_sub, ← EReal.coe_sub, ← EReal.coe_add]
  congr 2
  ring

end Cert.Lib.OnlineSoftmax

end
-- ==== Proof.Step.lean ====
/-
  One tile of the streaming softmax, in the form the kernel computes it.

  For one row, with scores `x`, mask `w` and one feature's values `v` over the 8192 key positions (all real
  numbers), the state after the first `n` tiles is the maximum `stM n` of the scores so far, the sum `stL n` of
  the weights `e^(x + w - stM n)` so far and the weighted sum `stA n` of the values so far. The kernel, handed
  the state after `j` tiles, forms the new maximum from the old one and the maxima of the tile's even and odd
  positions, and the new sums from the old ones rescaled by `e^(old maximum - new maximum)` plus the tile's even
  and odd positions' terms. That is the state after `j + 1` tiles; before any tile the state is `(-∞, 0, 0)`;
  after all 8 the sets are all positions.
-/
import proofs.«419862_j18794776888018_3_alg».proof.Proof.Tiles
import proofs.«419862_j18794776888018_3_alg».proof.Proof.LibOnlineSoftmax

noncomputable section

open scoped BigOperators

namespace Cert.Attn

open Idealize.ShloMosaic Cert.Lib.OnlineSoftmax

variable (x w v : Fin 8192 → EReal)

/-- The largest score among the first `n` tiles. -/
def stM (n : ℕ) : EReal := (done n).sup x
/-- The sum of the weights of the first `n` tiles, against their maximum. -/
def stL (n : ℕ) : EReal := ∑ p ∈ done n, wt x w (stM x n) p
/-- The weighted sum of the values of the first `n` tiles, against their maximum. -/
def stA (n : ℕ) : EReal := ∑ p ∈ done n, wt x w (stM x n) p * v p

theorem stM_zero : stM x 0 = ⊥ := by
  unfold stM; rw [done_zero, Finset.sup_empty]

theorem stL_zero : stL x w 0 = 0 := by
  unfold stL; rw [done_zero, Finset.sum_empty]

theorem stA_zero : stA x w v 0 = 0 := by
  unfold stA; rw [done_zero, Finset.sum_empty]

/-- The new maximum. -/
theorem stM_succ (j : Fin 8) :
    max (stM x j.val) (max (Finset.univ.sup fun r : Fin 512 => x (pos j r 0)) (Finset.univ.sup fun r : Fin 512 => x (pos j r 1)))
      = stM x (j.val + 1) := by
  unfold stM
  rw [← sup_tile j x, step_max, ← done_succ]

/-- The new sum of weights, as the kernel adds it up: the rescaled old sum, then the even positions, then the odd. -/
theorem stL_succ (hx : ∀ p, IsReal (x p)) (hw : ∀ p, IsReal (w p)) (j : Fin 8) :
    Ideal.exp (stM x j.val - stM x (j.val + 1)) * stL x w j.val
        + (∑ r : Fin 512, Ideal.exp (x (pos j r 0) + w (pos j r 0) - stM x (j.val + 1)))
        + ∑ r : Fin 512, Ideal.exp (x (pos j r 1) + w (pos j r 1) - stM x (j.val + 1))
      = stL x w (j.val + 1) := by
  have h := step_sum x w hx hw (done j.val) (tile j) (done_disjoint j) (tile_nonempty j)
  rw [← done_succ] at h
  unfold stL stM
  rw [add_assoc, ← h, sum_tile j (fun p => wt x w ((done (j.val + 1)).sup x) p)]
  rfl

/-- The new weighted sum of values. -/
theorem stA_succ (hx : ∀ p, IsReal (x p)) (hw : ∀ p, IsReal (w p)) (hv : ∀ p, IsReal (v p)) (j : Fin 8) :
    Ideal.exp (stM x j.val - stM x (j.val + 1)) * stA x w v j.val
        + (∑ r : Fin 512, Ideal.exp (x (pos j r 0) + w (pos j r 0) - stM x (j.val + 1)) * v (pos j r 0))
        + ∑ r : Fin 512, Ideal.exp (x (pos j r 1) + w (pos j r 1) - stM x (j.val + 1)) * v (pos j r 1)
      = stA x w v (j.val + 1) := by
  have h := step_acc x w v hx hw hv (done j.val) (tile j) (done_disjoint j) (tile_nonempty j)
  rw [← done_succ] at h
  unfold stA stM
  rw [add_assoc, ← h, sum_tile j (fun p => wt x w ((done (j.val + 1)).sup x) p * v p)]
  rfl

/-- After all eight tiles the maximum is over every position … -/
theorem stM_eight : stM x 8 = Finset.univ.sup x := by
  unfold stM; rw [done_eight]

/-- … and it is a real number. -/
theorem stM_eight_isReal (hx : ∀ p, IsReal (x p)) : IsReal (stM x 8) := by
  rw [stM_eight]; exact sup_isReal x hx Finset.univ ⟨0, Finset.mem_univ _⟩

/-- After all eight tiles the sum of weights is over every position, each weight in the form "score less maximum, plus mask". -/
theorem stL_eight (hx : ∀ p, IsReal (x p)) (hw : ∀ p, IsReal (w p)) :
    stL x w 8 = ∑ p : Fin 8192, Ideal.exp (x p - Finset.univ.sup x + w p) := by
  have hM := stM_eight_isReal x hx
  unfold stL
  rw [done_eight]
  refine Finset.sum_congr rfl fun p _ => ?_
  rw [wt_comm x w _ p (hx p) (hw p) hM, stM_eight]

/-- Likewise the weighted sum of values. -/
theorem stA_eight (hx : ∀ p, IsReal (x p)) (hw : ∀ p, IsReal (w p)) :
    stA x w v 8 = ∑ p : Fin 8192, Ideal.exp (x p - Finset.univ.sup x + w p) * v p := by
  have hM := stM_eight_isReal x hx
  unfold stA
  rw [done_eight]
  refine Finset.sum_congr rfl fun p _ => ?_
  rw [wt_comm x w _ p (hx p) (hw p) hM, stM_eight]

end Cert.Attn

end
-- ==== Proof.Spec.lean ====
/-
  The result of one decoding step of streaming attention, as ONE function of the argument arrays.

  For each of the 128 rows `b` (a batch entry and head) there is one query `Q b` of 64 features, 8192 cached
  keys `K b p` and values `Vv b p` with an additive mask `W b p`, and one pushed key and value `KP b`, `VP b`
  with its own query `QP b`. With the scores `x p = ⟨Q b, K b p⟩`, their maximum `M = max_p x p`, the weights
  `E p = e^(x p - M + W b p)` and the pushed weight `E' = e^(⟨QP b, KP b⟩ - M)`, the result at feature `d` is
      (α · ∑ p, E p · Vv b p d  +  E' · VP b d) / (α · ∑ p, E p  +  E'),
  `α` the decay (the single-precision number nearest 0.999, read as the rational it is). Everything is an
  extended real: sums, products, the exponential with `e^(-∞) = 0`, and the quotient of the ideal instance.
-/
import Idealize.ShloMosaic.PureOps.Ideal
import Idealize.ShloMosaic.Lib.ValueIdx

noncomputable section

open scoped BigOperators

namespace Cert.Attn

open Idealize.ShloMosaic Idealize.ShloMosaic.ValueIdx

/-- Queries, pushed queries / keys / values and the result: 128 rows, one position, 64 features. -/
abbrev SRow : Shape := ⟨3, ![128, 1, 64]⟩
/-- Cached keys and values: 128 rows, 8192 positions, 64 features. -/
abbrev SKeys : Shape := ⟨3, ![128, 8192, 64]⟩
/-- The additive mask: 128 rows, one query position, 8192 key positions. -/
abbrev SMask : Shape := ⟨3, ![128, 1, 8192]⟩

/-- The score of key position `p` for row `b`: the inner product of the row's query with that key. -/
def score (Q : SRow.Idx → EReal) (K : SKeys.Idx → EReal) (b : Fin 128) (p : Fin 8192) : EReal :=
  ∑ e : Fin 64, Q (ix3 b 0 e) * K (ix3 b p e)

/-- The largest score of row `b`. -/
def rowMax (Q : SRow.Idx → EReal) (K : SKeys.Idx → EReal) (b : Fin 128) : EReal :=
  Finset.univ.sup fun p : Fin 8192 => score Q K b p

/-- The weight of key position `p`: the exponential of its score less the maximum, plus the mask. -/
def weight (Q : SRow.Idx → EReal) (K : SKeys.Idx → EReal) (W : SMask.Idx → EReal) (b : Fin 128) (p : Fin 8192) : EReal :=
  Ideal.exp (score Q K b p - rowMax Q K b + W (ix3 b 0 p))

/-- The sum of the weights of row `b`. -/
def denom (Q : SRow.Idx → EReal) (K : SKeys.Idx → EReal) (W : SMask.Idx → EReal) (b : Fin 128) : EReal :=
  ∑ p : Fin 8192, weight Q K W b p

/-- The weighted sum of the values of row `b` at feature `d`. -/
def numer (Q : SRow.Idx → EReal) (K Vv : SKeys.Idx → EReal) (W : SMask.Idx → EReal) (b : Fin 128) (d : Fin 64) : EReal :=
  ∑ p : Fin 8192, weight Q K W b p * Vv (ix3 b p d)

/-- The score of the pushed key against its own query. -/
def pushScore (QP KP : SRow.Idx → EReal) (b : Fin 128) : EReal :=
  ∑ e : Fin 64, QP (ix3 b 0 e) * KP (ix3 b 0 e)

/-- The pushed key's weight, against the cached keys' maximum. -/
def pushWeight (Q : SRow.Idx → EReal) (K : SKeys.Idx → EReal) (QP KP : SRow.Idx → EReal) (b : Fin 128) : EReal :=
  Ideal.exp (pushScore QP KP b - rowMax Q K b)

/-- The decay: the extended real the single-precision word of 0.999 denotes. -/
def decay : EReal := Ideal.ofBits .f32 0x3F7FBE77#32

/-- The result at row `b`, feature `d`. -/
def outAt (Q : SRow.Idx → EReal) (K Vv : SKeys.Idx → EReal) (QP KP VP : SRow.Idx → EReal) (W : SMask.Idx → EReal)
    (b : Fin 128) (d : Fin 64) : EReal :=
  Ideal.div (decay * numer Q K Vv W b d + pushWeight Q K QP KP b * VP (ix3 b 0 d))
    (decay * denom Q K W b + pushWeight Q K QP KP b)

/-- The result array: `outAt` at each index's row and feature. -/
def G (Q : SRow.Idx → EReal) (K Vv : SKeys.Idx → EReal) (QP KP VP : SRow.Idx → EReal) (W : SMask.Idx → EReal) :
    SRow.Idx → EReal :=
  fun i => outAt Q K Vv QP KP VP W (i 0) (i 2)

end Cert.Attn

end
-- ==== Proof.TileStep.lean ====
/-
  One grid point, as mathematics: from the blocks' entries and the carried state to the next state and the result.

  Fix a row `b` of the batch, the row `bb` of the point's blocks that holds it, and the key tile `j` of the point.
  If the query block's row is the row's query, the key and value blocks' packed rows are the tile's key and value
  positions (pair `r`, parity `c` ↦ position `1024·j + 2·r + c`), the mask block's entries are the tile's mask
  entries, and the carried maximum, sum and weighted sums are the state after `j` tiles, then what the body stores
  is the state after `j + 1` tiles. At the last tile, with the pushed query, key and value blocks' rows the row's
  pushed query, key and value, what the body stores into the result block is the specification's value.
-/
import proofs.«419862_j18794776888018_3_alg».proof.Proof.PayLayout
import proofs.«419862_j18794776888018_3_alg».proof.Proof.PaySums
import proofs.«419862_j18794776888018_3_alg».proof.Proof.Step
import proofs.«419862_j18794776888018_3_alg».proof.Proof.Spec

noncomputable section

open scoped BigOperators

namespace Cert.Attn

open Idealize.ShloMosaic Idealize.ShloMosaic.ValueIdx Cert.KernelIdeal Cert.KernelIdeal.Gen Cert.Attn.Pay
open Cert.Lib.OnlineSoftmax

variable (Q : SRow.Idx → EReal) (K Vv : SKeys.Idx → EReal) (W : SMask.Idx → EReal)

/-- The scores of row `b`. -/
def xrow (b : Fin 128) : Fin 8192 → EReal := fun p => score Q K b p
/-- The mask entries of row `b`. -/
def wrow (b : Fin 128) : Fin 8192 → EReal := fun p => W (ix3 b 0 p)
/-- The values of row `b` at feature `d`. -/
def vrow (b : Fin 128) (d : Fin 64) : Fin 8192 → EReal := fun p => Vv (ix3 b p d)

theorem xrow_isReal (hQ : ∀ i, IsReal (Q i)) (hK : ∀ i, IsReal (K i)) (b : Fin 128) (p : Fin 8192) : IsReal (xrow Q K b p) := by
  unfold xrow score
  exact IsReal.sum _ _ fun e _ => IsReal.mul (hQ _) (hK _)

theorem wrow_isReal (hW : ∀ i, IsReal (W i)) (b : Fin 128) (p : Fin 8192) : IsReal (wrow W b p) := hW _

theorem vrow_isReal (hV : ∀ i, IsReal (Vv i)) (b : Fin 128) (d : Fin 64) (p : Fin 8192) : IsReal (vrow Vv b d p) := hV _

section Tile

variable (b : Fin 128) (j : Fin 8) (bb : Fin 16)
  (q : Vec Ideal S16x1x64 .f32) (kb vb : Vec Ideal S16x512x128 .f32) (wb : Vec Ideal S16x1x2x512 .f32)
  (m0 l0 : Vec Ideal S16x1x1 .f32) (a0 : Vec Ideal S16x1x64 .f32)

/-- The tile's scores are the row's scores at the tile's positions. -/
theorem scores_eq (hq : ∀ e : Fin 64, q (ix3 bb 0 e) = Q (ix3 b 0 e))
    (hk : ∀ (r : Fin 512) (cc : Fin 2) (e : Fin 64), kb (ix3 bb r (lane cc e)) = K (ix3 b (pos j r cc) e)) (r : Fin 512) :
    k0_pay13 (F := Ideal) q kb (ix3 bb 0 r) = xrow Q K b (pos j r 0)
      ∧ k0_pay14 (F := Ideal) q kb (ix3 bb 0 r) = xrow Q K b (pos j r 1) := by
  constructor
  · rw [pay13_apply]; unfold xrow score
    exact Finset.sum_congr rfl fun e _ => by rw [hq, hk]
  · rw [pay14_apply]; unfold xrow score
    exact Finset.sum_congr rfl fun e _ => by rw [hq, hk]

/-- The new maximum is the state's. -/
theorem max_step (hq : ∀ e : Fin 64, q (ix3 bb 0 e) = Q (ix3 b 0 e))
    (hk : ∀ (r : Fin 512) (cc : Fin 2) (e : Fin 64), kb (ix3 bb r (lane cc e)) = K (ix3 b (pos j r cc) e))
    (hm : m0 (ix3 bb 0 0) = stM (xrow Q K b) j.val) :
    k0_pay15 (F := Ideal) q kb m0 (ix3 bb 0 0) = stM (xrow Q K b) (j.val + 1) := by
  rw [pay15_apply, hm]
  have h0 : (fun r : Fin 512 => k0_pay13 (F := Ideal) q kb (ix3 bb 0 r)) = fun r => xrow Q K b (pos j r 0) :=
    funext fun r => (scores_eq Q K b j bb q kb hq hk r).1
  have h1 : (fun r : Fin 512 => k0_pay14 (F := Ideal) q kb (ix3 bb 0 r)) = fun r => xrow Q K b (pos j r 1) :=
    funext fun r => (scores_eq Q K b j bb q kb hq hk r).2
  rw [h0, h1]
  exact stM_succ (xrow Q K b) j

/-- The new sum of weights is the state's. -/
theorem sum_step (hQ : ∀ i, IsReal (Q i)) (hK : ∀ i, IsReal (K i)) (hW : ∀ i, IsReal (W i))
    (hq : ∀ e : Fin 64, q (ix3 bb 0 e) = Q (ix3 b 0 e))
    (hk : ∀ (r : Fin 512) (cc : Fin 2) (e : Fin 64), kb (ix3 bb r (lane cc e)) = K (ix3 b (pos j r cc) e))
    (hw : ∀ (cc : Fin 2) (r : Fin 512), wb (ix4 bb 0 cc r) = W (ix3 b 0 (pos j r cc)))
    (hm : m0 (ix3 bb 0 0) = stM (xrow Q K b) j.val) (hl : l0 (ix3 bb 0 0) = stL (xrow Q K b) (wrow W b) j.val) :
    k0_pay20 (F := Ideal) (k0_pay11 wb) (k0_pay12 wb) (k0_pay13 q kb) (k0_pay14 q kb) (k0_pay15 q kb m0) (k0_pay16 q kb m0 m0) l0 (ix3 bb 0 0)
      = stL (xrow Q K b) (wrow W b) (j.val + 1) := by
  rw [pay20_apply, pay16_apply, max_step Q K b j bb q kb m0 hq hk hm, hm, hl]
  rw [← stL_succ (xrow Q K b) (wrow W b) (xrow_isReal Q K hQ hK b) (wrow_isReal W hW b) j]
  congr 1
  · congr 1
    exact Finset.sum_congr rfl fun r _ => by
      rw [(scores_eq Q K b j bb q kb hq hk r).1, pay11_apply, hw]; rfl
  · exact Finset.sum_congr rfl fun r _ => by
      rw [(scores_eq Q K b j bb q kb hq hk r).2, pay12_apply, hw]; rfl

/-- The new weighted sum of values is the state's. -/
theorem acc_step (hQ : ∀ i, IsReal (Q i)) (hK : ∀ i, IsReal (K i)) (hV : ∀ i, IsReal (Vv i)) (hW : ∀ i, IsReal (W i))
    (hq : ∀ e : Fin 64, q (ix3 bb 0 e) = Q (ix3 b 0 e))
    (hk : ∀ (r : Fin 512) (cc : Fin 2) (e : Fin 64), kb (ix3 bb r (lane cc e)) = K (ix3 b (pos j r cc) e))
    (hv : ∀ (r : Fin 512) (cc : Fin 2) (d : Fin 64), vb (ix3 bb r (lane cc d)) = Vv (ix3 b (pos j r cc) d))
    (hw : ∀ (cc : Fin 2) (r : Fin 512), wb (ix4 bb 0 cc r) = W (ix3 b 0 (pos j r cc)))
    (hm : m0 (ix3 bb 0 0) = stM (xrow Q K b) j.val) (d : Fin 64)
    (ha : a0 (ix3 bb 0 d) = stA (xrow Q K b) (wrow W b) (vrow Vv b d) j.val) :
    k0_pay21 (F := Ideal) (k0_pay8 vb) (k0_pay9 vb) (k0_pay11 wb) (k0_pay12 wb) (k0_pay13 q kb) (k0_pay14 q kb) (k0_pay15 q kb m0) (k0_pay16 q kb m0 m0) a0 (ix3 bb 0 d)
      = stA (xrow Q K b) (wrow W b) (vrow Vv b d) (j.val + 1) := by
  rw [pay21_apply, pay16_apply, max_step Q K b j bb q kb m0 hq hk hm, hm, ha]
  rw [← stA_succ (xrow Q K b) (wrow W b) (vrow Vv b d) (xrow_isReal Q K hQ hK b) (wrow_isReal W hW b) (vrow_isReal Vv hV b d) j]
  congr 1
  · congr 1
    exact Finset.sum_congr rfl fun r _ => by
      rw [(scores_eq Q K b j bb q kb hq hk r).1, pay11_apply, hw, pay8_apply, hv]; rfl
  · exact Finset.sum_congr rfl fun r _ => by
      rw [(scores_eq Q K b j bb q kb hq hk r).2, pay12_apply, hw, pay9_apply, hv]; rfl

end Tile

/-- After the last tile: the maximum, the sum and the weighted sums are the specification's. -/
theorem stM_final (b : Fin 128) : stM (xrow Q K b) 8 = rowMax Q K b := by
  rw [stM_eight]; rfl

theorem stL_final (hQ : ∀ i, IsReal (Q i)) (hK : ∀ i, IsReal (K i)) (hW : ∀ i, IsReal (W i)) (b : Fin 128) :
    stL (xrow Q K b) (wrow W b) 8 = denom Q K W b := by
  rw [stL_eight (xrow Q K b) (wrow W b) (xrow_isReal Q K hQ hK b) (wrow_isReal W hW b)]; rfl

theorem stA_final (hQ : ∀ i, IsReal (Q i)) (hK : ∀ i, IsReal (K i)) (hW : ∀ i, IsReal (W i)) (b : Fin 128) (d : Fin 64) :
    stA (xrow Q K b) (wrow W b) (vrow Vv b d) 8 = numer Q K Vv W b d := by
  rw [stA_eight (xrow Q K b) (wrow W b) (vrow Vv b d) (xrow_isReal Q K hQ hK b) (wrow_isReal W hW b)]; rfl

/-- The result the last tile's point stores, from the final state and the pushed blocks. -/
theorem out_step (QP KP VP : SRow.Idx → EReal) (hQ : ∀ i, IsReal (Q i)) (hK : ∀ i, IsReal (K i)) (hW : ∀ i, IsReal (W i))
    (b : Fin 128) (bb : Fin 16) (qp kp vp : Vec Ideal S16x1x64 .f32) (mfin lfin : Vec Ideal S16x1x1 .f32) (afin : Vec Ideal S16x1x64 .f32)
    (hqp : ∀ e : Fin 64, qp (ix3 bb 0 e) = QP (ix3 b 0 e)) (hkp : ∀ e : Fin 64, kp (ix3 bb 0 e) = KP (ix3 b 0 e))
    (hvp : ∀ d : Fin 64, vp (ix3 bb 0 d) = VP (ix3 b 0 d))
    (hm : mfin (ix3 bb 0 0) = stM (xrow Q K b) 8) (hl : lfin (ix3 bb 0 0) = stL (xrow Q K b) (wrow W b) 8)
    (d : Fin 64) (ha : afin (ix3 bb 0 d) = stA (xrow Q K b) (wrow W b) (vrow Vv b d) 8) :
    k0_pay1 (F := Ideal) qp kp vp mfin afin lfin (ix3 bb 0 d) = outAt Q K Vv QP KP VP W b d := by
  rw [pay1_apply, hm, hl, ha, stM_final, stL_final Q K W hQ hK hW, stA_final Q K Vv W hQ hK hW, hvp]
  have hs : (∑ e : Fin 64, qp (ix3 bb 0 e) * kp (ix3 bb 0 e)) = pushScore QP KP b :=
    Finset.sum_congr rfl fun e _ => by rw [hqp, hkp]
  rw [hs]
  rfl

end Cert.Attn

end
-- ==== Proof.Final.lean ====
/-
  From the blocks written back to the whole result array.

  The result window's block index is the row block alone, so the eight points of a row block share one block of 16
  rows; it is written back once, after the last of them (the points with `t % 8 = 7`). The eight row blocks tile the
  128 rows. So if at each of those points the staging buffer holds rows `16·(t / 8) … 16·(t / 8) + 15` of one
  array `G`, the result array ends holding `G`.
-/
import proofs.«419862_j18794776888018_3_alg».proof.Proof.Gen.KernelIdeal.Value
import proofs.«419862_j18794776888018_3_alg».proof.Proof.Blocks
import Idealize.ShloMosaic.Lib.Pipeline.Value
import Idealize.ShloMosaic.Lib.ValueIdx

noncomputable section

namespace Cert.Attn.Final

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The result window's block index at point `t` is `(t / 8, 0, 0)`. -/
theorem idx_rows7 : ∀ t : Fin cfg0.N, win0_7.index t (0 : Fin 3) = t.val / 8
    ∧ win0_7.index t (1 : Fin 3) = 0 ∧ win0_7.index t (2 : Fin 3) = 0 :=
  (by decide +kernel : ∀ t : Fin grid0.N, _)

/-- Row `bb`, feature `d` of the block written back at a last-tile point `t` sits in the array at row
    `16·(t / 8) + bb`: a block's coordinate on an axis is its block index times the block's size plus the coordinate
    inside the block. -/
theorem row_block_read (c : Dev nD) (G : Vec Ideal S128x1x64 .f32)
    (h : ∀ (t : Fin cfg0.N), t.val % 8 = 7 → ∀ (bb : Fin 16) (d : Fin 64),
        (outsAt0 m c t.val t.isLt).1 (ix3 bb 0 d) = G (ix3 (Cert.Attn.Blk.rowOf t.val bb) 0 d))
    (t : Fin cfg0.N) (h7 : t.val % 8 = 7) (bb : Fin 16) (d : Fin 64) :
    (outsAt0 m c t.val t.isLt).1 (ix3 bb 0 d) = G (((cfg0.win 7).blk t).view.emb (ix3 bb 0 d)) := by
  rw [h t h7 bb d]
  obtain ⟨e0, e1, e2⟩ := idx_rows7 t
  have hN : cfg0.N = 64 := N_0
  have ht := t.isLt
  have hb := bb.isLt
  refine congrArg G (funext fun a => Fin.ext ?_)
  match a with
  | ⟨0, _⟩ =>
    show (16 * (t.val / 8) + bb.val) % 128 = win0_7.index t (0 : Fin 3) * 16 + 1 * bb.val
    omega
  | ⟨1, _⟩ =>
    show 0 = win0_7.index t (1 : Fin 3) * 1 + 1 * 0
    omega
  | ⟨2, _⟩ =>
    show d.val = win0_7.index t (2 : Fin 3) * 64 + 1 * d.val
    omega

/-- What a last-tile point writes back is its row block of `G`. -/
theorem flushed_rows (c : Dev nD) (G : Vec Ideal S128x1x64 .f32)
    (h : ∀ (t : Fin cfg0.N), t.val % 8 = 7 → ∀ (bb : Fin 16) (d : Fin 64),
        (outsAt0 m c t.val t.isLt).1 (ix3 bb 0 d) = G (ix3 (Cert.Attn.Blk.rowOf t.val bb) 0 d))
    (t : Fin cfg0.N) (hf : (cfg0.win 7).flush t = true) :
    (dats m 0 c).flushed 7 t = ((cfg0.win 7).blk t).view.read (Elt Ideal) G := by
  have h7 : t.val % 8 = 7 := (flush0_7 t).mp hf
  -- every index of a block is (row, 0, feature)
  have key : ∀ y : S16x1x64.Idx, (outsAt0 m c t.val t.isLt).1 y = G (((cfg0.win 7).blk t).view.emb y) := fun y => by
    have hy : y = ix3 (⟨(y 0).val, (y 0).isLt⟩ : Fin 16) (0 : Fin 1) (⟨(y 2).val, (y 2).isLt⟩ : Fin 64) :=
      funext fun a => match a with
        | ⟨0, _⟩ => rfl
        | ⟨1, _⟩ => Fin.eq_zero (y 1)
        | ⟨2, _⟩ => rfl
    exact (congrArg (outsAt0 m c t.val t.isLt).1 hy).trans
      ((row_block_read m c G h t h7 _ _).trans
        (congrArg (fun z => G (((cfg0.win 7).blk t).view.emb z)) hy.symm))
  rw [Value.flushed7]
  funext y
  exact key y

/-- An index of the array is in point `t`'s block iff each coordinate is in the block's range on its axis. -/
theorem mem_row_block (t : Fin cfg0.N) (i : S128x1x64.Idx) :
    i ∈ ((cfg0.win 7).blk t).view.set ↔ ∀ a : Fin 3, win0_7.index t a * S16x1x64.size a ≤ (i a).val
      ∧ (i a).val < win0_7.index t a * S16x1x64.size a + S16x1x64.size a := by
  show i ∈ ((View.whole main_v4).slice (win0_7.rect t)).set ↔ _
  rw [View.set_slice_whole, Rect.mem_set_unit]
  exact Iff.rfl

/-- The eight row blocks tile the 128 rows: row `r` is in the block of the last-tile point of row block `r / 16`. -/
theorem covered (i : S128x1x64.Idx) :
    ∃ t : Fin cfg0.N, (cfg0.win 7).flush t = true ∧ i ∈ ((cfg0.win 7).blk t).view.set := by
  have hN : cfg0.N = 64 := N_0
  have hi0 : (i 0).val < 128 := (i 0).isLt
  have hi1 : (i 1).val < 1 := (i 1).isLt
  have hi2 : (i 2).val < 64 := (i 2).isLt
  obtain ⟨t, ht⟩ : ∃ t : Fin cfg0.N, t.val = 8 * ((i 0).val / 16) + 7 := ⟨⟨8 * ((i 0).val / 16) + 7, by omega⟩, rfl⟩
  refine ⟨t, (flush0_7 t).mpr (by omega), ?_⟩
  rw [mem_row_block]
  obtain ⟨e0, e1, e2⟩ := idx_rows7 t
  intro a
  match a with
  | ⟨0, _⟩ =>
    show win0_7.index t (0 : Fin 3) * 16 ≤ (i 0).val ∧ (i 0).val < win0_7.index t (0 : Fin 3) * 16 + 16
    omega
  | ⟨1, _⟩ =>
    show win0_7.index t (1 : Fin 3) * 1 ≤ (i 1).val ∧ (i 1).val < win0_7.index t (1 : Fin 3) * 1 + 1
    omega
  | ⟨2, _⟩ =>
    show win0_7.index t (2 : Fin 3) * 64 ≤ (i 2).val ∧ (i 2).val < win0_7.index t (2 : Fin 3) * 64 + 64
    omega

/-- If what the result window's staging buffer holds after each last-tile point is that row block of `G`, the result
    array after the run is `G`. -/
theorem arr_eq_of_rows (c : Dev nD) (G : Vec Ideal S128x1x64 .f32)
    (h : ∀ (t : Fin cfg0.N), t.val % 8 = 7 → ∀ (bb : Fin 16) (d : Fin 64),
        (outsAt0 m c t.val t.isLt).1 (ix3 bb 0 d) = G (ix3 (Cert.Attn.Blk.rowOf t.val bb) 0 d)) :
    (dats m 0 c).arrAt 7 cfg0.N = G :=
  (dats m 0 c).arrAt_eq_of_cover 7 G (flushed_rows m c G h) covered

end Cert.Attn.Final

end
-- ==== Proof.Invariant.lean ====
/-
  The carried state along the grid, and the result blocks.

  By induction along the grid's points: after point `t` (row block `t / 8`, tile `t % 8`) the three carried
  buffers hold, for each of the block's 16 rows, the streaming softmax's state after `t % 8 + 1` tiles of that row.
  At a row block's first tile the body starts from the reset values, the state after no tile; at every other tile
  from what the point before left, the same row block's previous tile. At a row block's last tile all eight tiles
  are in, and the result block the body stores is the specification's rows; those blocks tile the result array.
-/
import proofs.«419862_j18794776888018_3_alg».proof.Proof.Gen.KernelIdeal.Value
import proofs.«419862_j18794776888018_3_alg».proof.Proof.Pieces
import proofs.«419862_j18794776888018_3_alg».proof.Proof.Blocks
import proofs.«419862_j18794776888018_3_alg».proof.Proof.TileStep
import proofs.«419862_j18794776888018_3_alg».proof.Proof.Final

noncomputable section

namespace Cert.Attn.Inv

open Idealize.ShloMosaic Idealize.ShloMosaic.ValueIdx Idealize.ShloMosaic.TcCoe Idealize.SL.Sem
open Cert.KernelIdeal Cert.KernelIdeal.Gen Cert.Attn Cert.Attn.Blk Cert.Attn.Pay Cert.Attn.Piece Cert.Lib.OnlineSoftmax

variable (m : (ℓ : Loc nD τ sig) → Buf (Elt Ideal) ℓ) (c : Dev nD)

/-- The scores, mask entries and values of the row that row `bb` of point `n`'s blocks is. -/
abbrev X (n : ℕ) (bb : Fin 16) : Fin 8192 → EReal := xrow (Qarr m c) (Karr m c) (rowOf n bb)
abbrev Wr (n : ℕ) (bb : Fin 16) : Fin 8192 → EReal := wrow (Warr m c) (rowOf n bb)
abbrev Vr (n : ℕ) (bb : Fin 16) (d : Fin 64) : Fin 8192 → EReal := vrow (Varr m c) (rowOf n bb) d

/-- One point: from the state after the point's tile index many tiles to the state after one more. -/
theorem point_step (hQ : ∀ i, IsReal (Qarr m c i)) (hK : ∀ i, IsReal (Karr m c i)) (hV : ∀ i, IsReal (Varr m c i))
    (hW : ∀ i, IsReal (Warr m c i)) (t : Fin cfg0.N) (bb : Fin 16)
    (s0 s1 : Vec Ideal S16x1x1 .f32) (s2 : Vec Ideal S16x1x64 .f32)
    (hm : s0 (ix3 bb 0 0) = stM (X m c t.val bb) (tileOf t.val).val)
    (hl : s1 (ix3 bb 0 0) = stL (X m c t.val bb) (Wr m c t.val bb) (tileOf t.val).val)
    (ha : ∀ d : Fin 64, s2 (ix3 bb 0 d) = stA (X m c t.val bb) (Wr m c t.val bb) (Vr m c t.val bb d) (tileOf t.val).val) :
    k0_pay22 (F := Ideal) (k0_pay15 (qblk m c t) (kblk m c t) s0) (ix3 bb 0 0) = stM (X m c t.val bb) ((tileOf t.val).val + 1)
    ∧ k0_pay20 (k0_pay11 (wblk m c t)) (k0_pay12 (wblk m c t)) (k0_pay13 (qblk m c t) (kblk m c t)) (k0_pay14 (qblk m c t) (kblk m c t)) (k0_pay15 (qblk m c t) (kblk m c t) s0) (k0_pay16 (qblk m c t) (kblk m c t) s0 s0) s1 (ix3 bb 0 0) = stL (X m c t.val bb) (Wr m c t.val bb) ((tileOf t.val).val + 1)
    ∧ ∀ d : Fin 64, k0_pay21 (k0_pay8 (vblk m c t)) (k0_pay9 (vblk m c t)) (k0_pay11 (wblk m c t)) (k0_pay12 (wblk m c t)) (k0_pay13 (qblk m c t) (kblk m c t)) (k0_pay14 (qblk m c t) (kblk m c t)) (k0_pay15 (qblk m c t) (kblk m c t) s0) (k0_pay16 (qblk m c t) (kblk m c t) s0 s0) s2 (ix3 bb 0 d)
        = stA (X m c t.val bb) (Wr m c t.val bb) (Vr m c t.val bb d) ((tileOf t.val).val + 1) := by
  have hq : ∀ e : Fin 64, qblk m c t (ix3 bb 0 e) = Qarr m c (ix3 (rowOf t.val bb) 0 e) := fun e => qblk_apply m c t bb e
  have hk : ∀ (r : Fin 512) (cc : Fin 2) (e : Fin 64), kblk m c t (ix3 bb r (Pay.lane cc e)) = Karr m c (ix3 (rowOf t.val bb) (pos (tileOf t.val) r cc) e) :=
    fun r cc e => kblk_apply m c t bb r cc e
  have hv : ∀ (r : Fin 512) (cc : Fin 2) (d : Fin 64), vblk m c t (ix3 bb r (Pay.lane cc d)) = Varr m c (ix3 (rowOf t.val bb) (pos (tileOf t.val) r cc) d) :=
    fun r cc d => vblk_apply m c t bb r cc d
  have hw : ∀ (cc : Fin 2) (r : Fin 512), wblk m c t (ix4 bb 0 cc r) = Warr m c (ix3 (rowOf t.val bb) 0 (pos (tileOf t.val) r cc)) :=
    fun cc r => wblk_apply m c t bb cc r
  refine ⟨?_, ?_, ?_⟩
  · rw [pay22_eq]
    exact max_step (Qarr m c) (Karr m c) (rowOf t.val bb) (tileOf t.val) bb (qblk m c t) (kblk m c t) s0 hq hk hm
  · exact sum_step (Qarr m c) (Karr m c) (Warr m c) (rowOf t.val bb) (tileOf t.val) bb (qblk m c t) (kblk m c t) (wblk m c t) s0 s1
      hQ hK hW hq hk hw hm hl
  · intro d
    exact acc_step (Qarr m c) (Karr m c) (Varr m c) (Warr m c) (rowOf t.val bb) (tileOf t.val) bb (qblk m c t) (kblk m c t) (vblk m c t) (wblk m c t) s0 s2
      hQ hK hV hW hq hk hv hw hm d (ha d)

/-- The carried buffers after point `t` hold the state after `t % 8 + 1` tiles, row by row. -/
def Good (t : Fin cfg0.N) : Prop := ∀ bb : Fin 16,
  (outsAt0 m c t.val t.isLt).2.1 (ix3 bb 0 0) = stM (X m c t.val bb) ((tileOf t.val).val + 1)
  ∧ (outsAt0 m c t.val t.isLt).2.2.1 (ix3 bb 0 0) = stL (X m c t.val bb) (Wr m c t.val bb) ((tileOf t.val).val + 1)
  ∧ ∀ d : Fin 64, (outsAt0 m c t.val t.isLt).2.2.2 (ix3 bb 0 d)
      = stA (X m c t.val bb) (Wr m c t.val bb) (Vr m c t.val bb d) ((tileOf t.val).val + 1)

/-- What the point before left is the state the next point of the same row block starts from. -/
theorem prev_state (t : Fin cfg0.N) (h0 : ¬t.val % 8 = 0) (hp : t.val - 1 < cfg0.N)
    (g : Good m c ⟨t.val - 1, hp⟩) (bb : Fin 16) :
    (outsAt0 m c (t.val - 1) hp).2.1 (ix3 bb 0 0) = stM (X m c t.val bb) (tileOf t.val).val
    ∧ (outsAt0 m c (t.val - 1) hp).2.2.1 (ix3 bb 0 0) = stL (X m c t.val bb) (Wr m c t.val bb) (tileOf t.val).val
    ∧ ∀ d : Fin 64, (outsAt0 m c (t.val - 1) hp).2.2.2 (ix3 bb 0 d)
        = stA (X m c t.val bb) (Wr m c t.val bb) (Vr m c t.val bb d) (tileOf t.val).val := by
  have hr : rowOf (t.val - 1) bb = rowOf t.val bb := Fin.ext (by
    show (16 * ((t.val - 1) / 8) + bb.val) % 128 = (16 * (t.val / 8) + bb.val) % 128
    omega)
  have hj : (tileOf (t.val - 1)).val + 1 = (tileOf t.val).val := by
    show (t.val - 1) % 8 + 1 = t.val % 8
    omega
  have g' := g bb
  dsimp only [X, Wr, Vr] at g' ⊢
  rw [hr, hj] at g'
  exact g'

theorem good_all (hQ : ∀ i, IsReal (Qarr m c i)) (hK : ∀ i, IsReal (Karr m c i)) (hV : ∀ i, IsReal (Varr m c i))
    (hW : ∀ i, IsReal (Warr m c i)) : ∀ (N : ℕ) (t : Fin cfg0.N), t.val = N → Good m c t := by
  intro N
  induction N using Nat.strong_induction_on with
  | _ N ih =>
    intro t ht bb
    by_cases h0 : t.val % 8 = 0
    · have h1 : ¬t.val % 8 = 7 := by omega
      have hj : (tileOf t.val).val = 0 := h0
      rw [outsAt0_A m c t h0 h1]
      dsimp only
      rw [sout_A_0, sout_A_1, sout_A_2]
      exact point_step m c hQ hK hV hW t bb (k0_pay2 (F := Ideal)) (k0_pay3 (F := Ideal)) (k0_pay4 (F := Ideal))
        (by rw [pay2_apply, hj, stM_zero]) (by rw [pay3_apply, hj, stL_zero]) (fun d => by rw [pay4_apply, hj, stA_zero])
    · have hp : t.val - 1 < cfg0.N := Nat.lt_of_le_of_lt (Nat.sub_le _ _) t.isLt
      have g := ih (t.val - 1) (by omega) ⟨t.val - 1, hp⟩ rfl
      obtain ⟨pm, pl, pa⟩ := prev_state m c t h0 hp g bb
      by_cases h1 : t.val % 8 = 7
      · rw [outsAt0_C m c t h0 h1]
        dsimp only
        rw [sout_C_0, sout_C_1, sout_C_2]
        exact point_step m c hQ hK hV hW t bb _ _ _ pm pl pa
      · rw [outsAt0_B m c t h0 h1]
        dsimp only
        rw [sout_B_0, sout_B_1, sout_B_2]
        exact point_step m c hQ hK hV hW t bb _ _ _ pm pl pa

/-- At a row block's last tile the result block holds the specification's rows. -/
theorem out_rows (hQ : ∀ i, IsReal (Qarr m c i)) (hK : ∀ i, IsReal (Karr m c i)) (hV : ∀ i, IsReal (Varr m c i))
    (hW : ∀ i, IsReal (Warr m c i)) (t : Fin cfg0.N) (h1 : t.val % 8 = 7) (bb : Fin 16) (d : Fin 64) :
    (outsAt0 m c t.val t.isLt).1 (ix3 bb 0 d)
      = G (Qarr m c) (Karr m c) (Varr m c) (QParr m c) (KParr m c) (VParr m c) (Warr m c) (ix3 (rowOf t.val bb) 0 d) := by
  have h0 : ¬t.val % 8 = 0 := by omega
  have hp : t.val - 1 < cfg0.N := Nat.lt_of_le_of_lt (Nat.sub_le _ _) t.isLt
  have g := good_all m c hQ hK hV hW (t.val - 1) ⟨t.val - 1, hp⟩ rfl
  obtain ⟨pm, pl, pa⟩ := prev_state m c t h0 hp g bb
  obtain ⟨nm, nl, na⟩ := point_step m c hQ hK hV hW t bb _ _ _ pm pl pa
  have hj : (tileOf t.val).val + 1 = 8 := by show t.val % 8 + 1 = 8; omega
  rw [hj] at nm nl na
  rw [outsAt0_C m c t h0 h1]
  dsimp only
  rw [out_C_7]
  exact out_step (Qarr m c) (Karr m c) (Varr m c) (Warr m c) (QParr m c) (KParr m c) (VParr m c) hQ hK hW (rowOf t.val bb) bb
    (qpblk m c t) (kpblk m c t) (vpblk m c t) _ _ _
    (fun e => qpblk_apply m c t bb e) (fun e => kpblk_apply m c t bb e) (fun d => vpblk_apply m c t bb d) nm nl d (na d)

/-- THE RESULT ARRAY after the run is the specification of the argument arrays. -/
theorem result_eq (hQ : ∀ i, IsReal (Qarr m c i)) (hK : ∀ i, IsReal (Karr m c i)) (hV : ∀ i, IsReal (Varr m c i))
    (hW : ∀ i, IsReal (Warr m c i)) :
    (dats m 0 c).arrAt 7 cfg0.N
      = G (Qarr m c) (Karr m c) (Varr m c) (QParr m c) (KParr m c) (VParr m c) (Warr m c) :=
  Cert.Attn.Final.arr_eq_of_rows m c _ fun t h1 bb d => out_rows m c hQ hK hV hW t h1 bb d

end Cert.Attn.Inv

end
-- ==== Proof.RefValue.lean ====
/-
  The reference computes the specification.

  Read one operation at a time, the reference program's result at row `b`, feature `d` is
  `(α · ∑ p, E p · Vv b p d + E' · VP b d) / (α · ∑ p, E p + E')` with `E p = e^(x p - M + W b p)`,
  `E' = e^(⟨QP b, KP b⟩ - M)`, `x p = ⟨Q b, K b p⟩` and `M` the fold of `max` from `-∞` over the scores: the
  specification's `outAt`, term for term. The sums from a zero initial value lose the zero, the products over a
  contraction axis of extent one are their single term, and the fold of `max` from `-∞` is the supremum.
-/
import proofs.«419862_j18794776888018_3_alg».proof.Proof.Gen.ReferenceIdeal.Read
import proofs.«419862_j18794776888018_3_alg».proof.Proof.Spec
import proofs.«419862_j18794776888018_3_alg».proof.Proof.LibOnlineSoftmax

noncomputable section

open scoped BigOperators

namespace Cert.ReferenceIdeal.RefValue

open Idealize.ShloMosaic Idealize.ShloMosaic.ValueIdx Cert.ReferenceIdeal Cert.ReferenceIdeal.Gen Cert.ReferenceIdeal.Read

/-! ## Index equations: the composed index functions at coordinates -/

/-- The score's left index: row `b`, the one query position, feature `e`. -/
theorem lidx_v0 (b : Fin 128) (p : Fin 8192) (e : Fin 64) :
    lidx_main_v0 (ix3 b (0 : Fin 1) p) e = ix3 b (0 : Fin 1) e :=
  funext fun a => Fin.ext (by match a with | ⟨0, _⟩ => rfl | ⟨1, _⟩ => rfl | ⟨2, _⟩ => rfl)

/-- The score's right index: row `b`, key position `p`, feature `e`. -/
theorem ridx_v0 (b : Fin 128) (p : Fin 8192) (e : Fin 64) :
    ridx_main_v0 (ix3 b (0 : Fin 1) p) e = ix3 b p e :=
  funext fun a => Fin.ext (by match a with | ⟨0, _⟩ => rfl | ⟨1, _⟩ => rfl | ⟨2, _⟩ => rfl)

/-- The score of key position `p` is the inner product of the row's query with that key. -/
theorem score_eq (x0 : (⟨S128x1x64, .f32⟩ : BufTy).Contents (Elt Ideal)) (x1 : (⟨S128x8192x64, .f32⟩ : BufTy).Contents (Elt Ideal)) (b : Fin 128) (p : Fin 8192) :
    val_main_v0 (F := Ideal) x0 x1 (ix3 b (0 : Fin 1) p) = Cert.Attn.score x0 x1 b p := by
  rw [val_main_v0_apply]
  unfold Cert.Attn.score
  refine Finset.sum_congr rfl fun e _ => ?_
  rw [lidx_v0, ridx_v0]

/-! ## The row maximum -/

/-- The reduced index (row `b`) with key position `k` put back on the last axis. -/
theorem lift_row (h : S128x1x8192.Reduces [2] S128x1) (b : Fin 128) (k : Fin 8192) :
    h.lift (ix2 b (0 : Fin 1)) k = ix3 b (0 : Fin 1) k :=
  funext fun a => Fin.ext (by match a with | ⟨0, _⟩ => rfl | ⟨1, _⟩ => rfl | ⟨2, _⟩ => rfl)

/-- The single-precision word of `-∞` denotes the least extended real. -/
theorem ofBits_negInf : Ideal.ofBits .f32 0xFF800000#32 = (⊥ : EReal) := by
  simp [Ideal.ofBits, Ideal.ieee]

/-- The fold of `max` from `-∞` over a row's scores is the row's largest score. -/
theorem rowMax_v1 (x0 : (⟨S128x1x64, .f32⟩ : BufTy).Contents (Elt Ideal)) (x1 : (⟨S128x8192x64, .f32⟩ : BufTy).Contents (Elt Ideal)) (b : Fin 128) :
    val_main_v1 (F := Ideal) x0 x1 (ix2 b (0 : Fin 1)) = Cert.Attn.rowMax x0 x1 b := by
  unfold val_main_v1
  have h : S128x1x8192.Reduces [2] S128x1 := by decide
  rw [Host.reduce_eq_fold_single FloatOps.maximumf _ _ reducesTo_S128x1x8192_S128x1_d2 h h_S_,
    val_main_cst_apply, Ideal.ofBits_def, ofBits_negInf]
  have hf : (val_main_v0 (F := Ideal) x0 x1 ∘ h.lift (ix2 b (0 : Fin 1)))
      = fun p : Fin 8192 => Cert.Attn.score x0 x1 b p :=
    funext fun p => (congrArg (val_main_v0 (F := Ideal) x0 x1) (lift_row h b p)).trans (score_eq x0 x1 b p)
  rw [hf]
  exact Cert.Lib.OnlineSoftmax.fold_max_bot_eq_sup _ _

/-- The broadcast row maximum reads the reduced array at the row. -/
theorem idx_v2 (b : Fin 128) : idx_main_v2 (ix3 b (0 : Fin 1) (0 : Fin 1)) = ix2 b (0 : Fin 1) :=
  funext fun a => Fin.ext (by match a with | ⟨0, _⟩ => rfl | ⟨1, _⟩ => rfl)

/-- The row maximum, kept with its unit axes. -/
theorem rowMax_eq (x0 : (⟨S128x1x64, .f32⟩ : BufTy).Contents (Elt Ideal)) (x1 : (⟨S128x8192x64, .f32⟩ : BufTy).Contents (Elt Ideal)) (b : Fin 128) :
    val_main_v2 (F := Ideal) x0 x1 (ix3 b (0 : Fin 1) (0 : Fin 1)) = Cert.Attn.rowMax x0 x1 b := by
  rw [val_main_v2_apply, idx_v2, rowMax_v1]

/-! ## The weights -/

/-- The maximum broadcast along the key positions reads the kept maximum of the row. -/
theorem idx_v3 (b : Fin 128) (p : Fin 8192) :
    idx_main_v3 (ix3 b (0 : Fin 1) p) = ix3 b (0 : Fin 1) (0 : Fin 1) :=
  funext fun a => Fin.ext (by match a with | ⟨0, _⟩ => rfl | ⟨1, _⟩ => rfl | ⟨2, _⟩ => rfl)

/-- The weight of key position `p`. -/
theorem weight_eq (x0 : (⟨S128x1x64, .f32⟩ : BufTy).Contents (Elt Ideal)) (x1 : (⟨S128x8192x64, .f32⟩ : BufTy).Contents (Elt Ideal)) (x6 : (⟨S128x1x8192, .f32⟩ : BufTy).Contents (Elt Ideal)) (b : Fin 128) (p : Fin 8192) :
    val_main_v6 (F := Ideal) x0 x1 x6 (ix3 b (0 : Fin 1) p) = Cert.Attn.weight x0 x1 x6 b p := by
  rw [val_main_v6_apply, val_main_v5_apply, val_main_v4_apply, val_main_v3_apply, idx_v3, rowMax_eq, score_eq,
    Ideal.hostUnary_exp_def, Ideal.addf_def, Ideal.subf_def]
  rfl

/-! ## The sum of the weights -/

/-- The summed array at row `b`, read at key position `k`. -/
theorem idx_v8 (b : Fin 128) (k : Fin 8192) :
    idx_main_v8 (idx_main_v9 (ix3 b (0 : Fin 1) (0 : Fin 1))) k = ix3 b (0 : Fin 1) k :=
  funext fun a => Fin.ext (by match a with | ⟨0, _⟩ => rfl | ⟨1, _⟩ => rfl | ⟨2, _⟩ => rfl)

/-- The sum of the weights; the zero it starts from is lost. -/
theorem denom_eq (x0 : (⟨S128x1x64, .f32⟩ : BufTy).Contents (Elt Ideal)) (x1 : (⟨S128x8192x64, .f32⟩ : BufTy).Contents (Elt Ideal)) (x6 : (⟨S128x1x8192, .f32⟩ : BufTy).Contents (Elt Ideal)) (b : Fin 128) :
    val_main_v9 (F := Ideal) x0 x1 x6 (ix3 b (0 : Fin 1) (0 : Fin 1)) = Cert.Attn.denom x0 x1 x6 b := by
  rw [val_main_v9_apply, val_main_v8_apply, val_main_cst_0_apply, Ideal.ofBits_def, Ideal.ofBits_zero_f32, zero_add]
  unfold Cert.Attn.denom
  refine Finset.sum_congr rfl fun k _ => ?_
  rw [idx_v8, weight_eq]

/-! ## The weighted sum of the values -/

/-- The weighted sum's left index: the weight of key position `k`. -/
theorem lidx_v7 (b : Fin 128) (d : Fin 64) (k : Fin 8192) :
    lidx_main_v7 (ix3 b (0 : Fin 1) d) k = ix3 b (0 : Fin 1) k :=
  funext fun a => Fin.ext (by match a with | ⟨0, _⟩ => rfl | ⟨1, _⟩ => rfl | ⟨2, _⟩ => rfl)

/-- The weighted sum's right index: the value at key position `k`, feature `d`. -/
theorem ridx_v7 (b : Fin 128) (d : Fin 64) (k : Fin 8192) :
    ridx_main_v7 (ix3 b (0 : Fin 1) d) k = ix3 b k d :=
  funext fun a => Fin.ext (by match a with | ⟨0, _⟩ => rfl | ⟨1, _⟩ => rfl | ⟨2, _⟩ => rfl)

/-- The weighted sum of the values at feature `d`. -/
theorem numer_eq (x0 : (⟨S128x1x64, .f32⟩ : BufTy).Contents (Elt Ideal)) (x1 x2 : (⟨S128x8192x64, .f32⟩ : BufTy).Contents (Elt Ideal)) (x6 : (⟨S128x1x8192, .f32⟩ : BufTy).Contents (Elt Ideal)) (b : Fin 128) (d : Fin 64) :
    val_main_v7 (F := Ideal) x0 x1 x2 x6 (ix3 b (0 : Fin 1) d) = Cert.Attn.numer x0 x1 x2 x6 b d := by
  rw [val_main_v7_apply]
  unfold Cert.Attn.numer
  refine Finset.sum_congr rfl fun k _ => ?_
  rw [lidx_v7, ridx_v7, weight_eq]

/-! ## The pushed key's weight -/

/-- The pushed score's left index. -/
theorem lidx_v10 (b : Fin 128) (e : Fin 64) :
    lidx_main_v10 (ix3 b (0 : Fin 1) (0 : Fin 1)) e = ix3 b (0 : Fin 1) e :=
  funext fun a => Fin.ext (by match a with | ⟨0, _⟩ => rfl | ⟨1, _⟩ => rfl | ⟨2, _⟩ => rfl)

/-- The pushed score's right index. -/
theorem ridx_v10 (b : Fin 128) (e : Fin 64) :
    ridx_main_v10 (ix3 b (0 : Fin 1) (0 : Fin 1)) e = ix3 b (0 : Fin 1) e :=
  funext fun a => Fin.ext (by match a with | ⟨0, _⟩ => rfl | ⟨1, _⟩ => rfl | ⟨2, _⟩ => rfl)

/-- The pushed key's weight against the cached keys' maximum. -/
theorem pushWeight_eq (x0 : (⟨S128x1x64, .f32⟩ : BufTy).Contents (Elt Ideal)) (x1 : (⟨S128x8192x64, .f32⟩ : BufTy).Contents (Elt Ideal)) (x3 x4 : (⟨S128x1x64, .f32⟩ : BufTy).Contents (Elt Ideal)) (b : Fin 128) :
    val_main_v12 (F := Ideal) x0 x1 x3 x4 (ix3 b (0 : Fin 1) (0 : Fin 1)) = Cert.Attn.pushWeight x0 x1 x3 x4 b := by
  rw [val_main_v12_apply, val_main_v11_apply, val_main_v10_apply, rowMax_eq, Ideal.hostUnary_exp_def, Ideal.subf_def]
  unfold Cert.Attn.pushWeight Cert.Attn.pushScore
  refine congrArg (fun s => Ideal.exp (s - Cert.Attn.rowMax x0 x1 b)) (Finset.sum_congr rfl fun e _ => ?_)
  rw [lidx_v10, ridx_v10]

/-! ## The quotient -/

/-- The divisor broadcast along the features reads the kept divisor of the row. -/
theorem idx_v22 (b : Fin 128) (d : Fin 64) :
    idx_main_v22 (ix3 b (0 : Fin 1) d) = ix3 b (0 : Fin 1) (0 : Fin 1) :=
  funext fun a => Fin.ext (by match a with | ⟨0, _⟩ => rfl | ⟨1, _⟩ => rfl | ⟨2, _⟩ => rfl)

/-- The pushed term's left index: the pushed weight of the row. -/
theorem lidx_v15 (b : Fin 128) (d : Fin 64) :
    lidx_main_v15 (ix3 b (0 : Fin 1) d) (0 : Fin 1) = ix3 b (0 : Fin 1) (0 : Fin 1) :=
  funext fun a => Fin.ext (by match a with | ⟨0, _⟩ => rfl | ⟨1, _⟩ => rfl | ⟨2, _⟩ => rfl)

/-- The pushed term's right index: the pushed value at feature `d`. -/
theorem ridx_v15 (b : Fin 128) (d : Fin 64) :
    ridx_main_v15 (ix3 b (0 : Fin 1) d) (0 : Fin 1) = ix3 b (0 : Fin 1) d :=
  funext fun a => Fin.ext (by match a with | ⟨0, _⟩ => rfl | ⟨1, _⟩ => rfl | ⟨2, _⟩ => rfl)

/-- The one-term sum of the pushed weight reads it at the row. -/
theorem idx_v13 (b : Fin 128) :
    idx_main_v13 (idx_main_v14 (ix3 b (0 : Fin 1) (0 : Fin 1))) (0 : Fin 1) = ix3 b (0 : Fin 1) (0 : Fin 1) :=
  funext fun a => Fin.ext (by match a with | ⟨0, _⟩ => rfl | ⟨1, _⟩ => rfl | ⟨2, _⟩ => rfl)

/-- The reference's result array is the specification of its seven argument arrays. -/
theorem ref_eq (x0 : (⟨S128x1x64, .f32⟩ : BufTy).Contents (Elt Ideal)) (x1 x2 : (⟨S128x8192x64, .f32⟩ : BufTy).Contents (Elt Ideal))
    (x3 x4 x5 : (⟨S128x1x64, .f32⟩ : BufTy).Contents (Elt Ideal)) (x6 : (⟨S128x1x8192, .f32⟩ : BufTy).Contents (Elt Ideal)) :
    val_main_v23 (F := Ideal) x0 x1 x2 x3 x4 x5 x6 = Cert.Attn.G x0 x1 x2 x3 x4 x5 x6 := by
  funext i
  obtain ⟨b, z, d, rfl⟩ : ∃ (b : Fin 128) (z : Fin 1) (d : Fin 64), i = ix3 b z d := ⟨i 0, i 1, i 2, eq_ix3 i⟩
  obtain rfl : z = 0 := Subsingleton.elim _ _
  rw [val_main_v23_apply, val_main_v18_apply, val_main_v22_apply, val_main_v17_apply, val_main_v21_apply,
    val_main_v16_apply, val_main_v15_apply, val_main_v20_apply, val_main_v14_apply, val_main_v19_apply,
    val_main_v13_apply, val_main_cst_1_apply, val_main_cst_2_apply, val_main_cst_3_apply,
    Fin.sum_univ_one, Fin.sum_univ_one, idx_v22, lidx_v15, ridx_v15, idx_v13,
    numer_eq, denom_eq, pushWeight_eq,
    Ideal.ofBits_def, Ideal.ofBits_def, Ideal.ofBits_zero_f32, zero_add,
    Ideal.hostDivf_def, Ideal.addf_def, Ideal.addf_def, Ideal.mulf_def, Ideal.mulf_def]
  rfl

end Cert.ReferenceIdeal.RefValue

end
-- ==== Proof.Finite.lean ====
/-
  The precondition read: every entry of every argument array is a real number.

  The stated precondition is, array by array, "the absolute value of every entry is below +∞", all seven
  conjoined. On the extended reals `|x| < +∞` leaves out exactly `+∞` and `-∞`, so every entry is a real.
-/
import proofs.«419862_j18794776888018_3_alg».proof.Pre_finite_inputs
import proofs.«419862_j18794776888018_3_alg».proof.Proof.LibOnlineSoftmax
import Idealize.ShloMosaic.Lib.ReduceAll
import Idealize.ShloMosaic.Lib.ValueIdx

noncomputable section

namespace Cert.Attn.Finite

open Idealize.ShloMosaic Idealize.ShloMosaic.ValueIdx Cert.Pre_finite_inputs Cert.Lib.OnlineSoftmax

/-- The shape with no axes has exactly one index. -/
instance subsingleton_scalar_idx : Subsingleton S_.Idx := ⟨fun a b => funext fun d => d.elim0⟩

/-- An extended real whose absolute value `max x (-x)` lies below `+∞` is a real number: the two
    infinities both have absolute value `+∞`. -/
theorem isReal_of_abs_lt_top (x : EReal) (h : max x (-x) < ⊤) : IsReal x := by
  induction x using EReal.rec with
  | bot => simp at h
  | coe r => exact ⟨r, rfl⟩
  | top => simp at h

/-- The word `0x7F800000` denotes `+∞`. -/
theorem ofBits_inf : Ideal.ofBits .f32 0x7F800000#32 = ⊤ := by
  simp [Ideal.ofBits, Ideal.ieee]

/-- One entry: the test `|x| < +∞` coming out true makes `x` a real number. -/
theorem isReal_of_test (x : Ideal .f32)
    (h : FloatOps.cmpf (F := Ideal) .olt (FloatOps.hostAbsf x) (FloatOps.ofBits .f32 0x7F800000#32) = 1#1) :
    IsReal x := by
  apply isReal_of_abs_lt_top
  -- the test is the truth value of `max x (-x) < +∞` as a one-bit word
  have h' : BitVec.ofBool (decide (max x (-x) < (⊤ : EReal))) = 1#1 := by
    rw [← ofBits_inf]; exact h
  by_contra hn
  rw [decide_eq_false hn] at h'
  exact absurd h' (by decide)

/-- An array whose test `|·| < +∞`, and-reduced over all its axes, comes out true has only real entries. -/
theorem all_real {s : Shape} {axes : List (Fin s.rank)} {dims : Fin S_.rank → Fin s.rank}
    (a : FVec Ideal s .f32) (hb : S_.BroadcastsInDim s dims) (hr : s.ReducesTo axes S_) (hu : 0 < S_.numel)
    (j : S_.Idx)
    (e : Host.reduce IntOp.andi
          (cmpf .olt (Host.absf a) (broadcastInDim s dims hb (constant (F := Ideal) S_ .f32 0x7F800000#32)))
          (constantI S_ 1 1#1) hr hu j = 1#1) :
    ∀ i, IsReal (a i) := by
  intro i
  have hi := Host.reduce_andi_all _ _ hr hu j e i
  exact isReal_of_test (a i) hi

/-- Where the precondition holds, every entry of the seven argument arrays is a real number. -/
theorem real_of_pre [Cert.Pre_finite_inputs.Facts]
    (a0 : FVec Ideal S128x1x64 .f32) (a1 a2 : FVec Ideal S128x8192x64 .f32) (a3 a4 a5 : FVec Ideal S128x1x64 .f32)
    (a6 : FVec Ideal S128x1x8192 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ValueIdx.ix0
  dsimp only [Cert.Pre_finite_inputs.fn, Cert.Pre_finite_inputs.fn_part1] at h0
  -- the conjunction of the seven all-reductions, split from the outside in
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

end Cert.Attn.Finite

end
-- ==== Proof.lean ====
/-
  One decoding step of streaming attention: a kernel that streams the cached keys and values once, tile by tile,
  against the plain formula.

  For each of 128 rows the result is
      (α · ∑ p, E p · v p  +  E' · v')  /  (α · ∑ p, E p  +  E'),
  `E p = e^(x p - M + w p)` over the 8192 cached positions (`x` the scores of the row's query against the keys,
  `M` their maximum, `w` an additive mask), `E' = e^(x' - M)` the pushed key's weight and `α` the decay. The
  reference computes exactly this. The kernel never holds a row's scores whole: it takes the positions in 8 tiles
  of 1024 (two positions packed to a row of 128 lanes), keeps a running maximum, a running sum of weights and a
  running weighted sum of values, and at every tile rescales the two sums by `e^(old maximum - new maximum)`
  before adding the tile's terms; at the last tile it adds the pushed terms and divides. Over the extended reals
  with every input a real number the rescaling is exact, `e^(M - M') · e^(x + w - M) = e^(x + w - M')`, the first
  tile starts from `(-∞, 0, 0)` with `e^(-∞) = 0`, and maxima and sums do not depend on the order or grouping of
  their terms; so after the last tile the three running quantities are the formula's `M`, `∑ E` and `∑ E · v`,
  and the two programs end with the same array. A change of number format is the identity at this reading, and
  the kernel's product into a zero accumulator is the reference's contraction.

  The three runs are the generated ones: each program terminates without a fault and leaves its arguments as they
  were. The idealized kernel is the kernel's own text read over the extended reals, so nothing is owed for it.
-/
import proofs.«419862_j18794776888018_3_alg».proof.Defs
import proofs.«419862_j18794776888018_3_alg».proof.Proof.Gen.Kernel
import proofs.«419862_j18794776888018_3_alg».proof.Proof.Gen.Kernel.Skeleton
import proofs.«419862_j18794776888018_3_alg».proof.Proof.Gen.Kernel.Launch
import proofs.«419862_j18794776888018_3_alg».proof.Proof.Gen.Kernel.Points
import proofs.«419862_j18794776888018_3_alg».proof.Proof.Gen.Kernel.Frame
import proofs.«419862_j18794776888018_3_alg».proof.Proof.Gen.KernelIdeal
import proofs.«419862_j18794776888018_3_alg».proof.Proof.Gen.KernelIdeal.Skeleton
import proofs.«419862_j18794776888018_3_alg».proof.Proof.Gen.KernelIdeal.Launch
import proofs.«419862_j18794776888018_3_alg».proof.Proof.Gen.KernelIdeal.Points
import proofs.«419862_j18794776888018_3_alg».proof.Proof.Gen.KernelIdeal.Frame
import proofs.«419862_j18794776888018_3_alg».proof.Proof.Gen.ReferenceIdeal
import proofs.«419862_j18794776888018_3_alg».proof.Proof.Gen.Pre_finite_inputs
import proofs.«419862_j18794776888018_3_alg».proof.Proof.Gen.KernelIdeal.Value
import proofs.«419862_j18794776888018_3_alg».proof.Proof.Gen.ReferenceIdeal.Run
import proofs.«419862_j18794776888018_3_alg».proof.Proof.Gen.ReferenceIdeal.Read
import proofs.«419862_j18794776888018_3_alg».proof.Proof.Invariant
import proofs.«419862_j18794776888018_3_alg».proof.Proof.RefValue
import proofs.«419862_j18794776888018_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification of the argument arrays: the kernel because its carried state after
    the last tile is the whole row's maximum and sums, the reference operation by operation. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Value.run_blocks m ρ)
    obtain ⟨hQ, hK, hV, _, _, _, hW⟩ := Cert.Attn.Finite.real_of_pre _ _ _ _ _ _ _ (hpre c)
    exact Cert.Attn.Inv.result_eq m c hQ hK hV hW
  · refine (θ_run Cert.ReferenceIdeal.defs _ _).mono (fun r h c => ⟨(h c).1.trans ?_, (h c).2⟩)
      (Cert.ReferenceIdeal.Value.run (F := Ideal) m' ρ')
    show Cert.ReferenceIdeal.Read.val_main_v23 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [Cert.ReferenceIdeal.RefValue.ref_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
